-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x192x192x64 : Shape := ⟨4, ![8, 192, 192, 64]⟩
abbrev S64x16 : Shape := ⟨2, ![64, 16]⟩
abbrev S16 : Shape := ⟨1, ![16]⟩
abbrev S16x36 : Shape := ⟨2, ![16, 36]⟩
abbrev S36 : Shape := ⟨1, ![36]⟩
abbrev S_ : Shape := ⟨0, ![]⟩

class Facts : Prop where
  bcast_S_S8x192x192x64 : S_.BroadcastsInDim S8x192x192x64 (![] : Fin 0 → Fin S8x192x192x64.rank)
  reducesTo_S8x192x192x64_S_d0_1_2_3 : S8x192x192x64.ReducesTo [0, 1, 2, 3] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x36 : S_.BroadcastsInDim S16x36 (![] : Fin 0 → Fin S16x36.rank)
  reducesTo_S16x36_S_d0_1 : S16x36.ReducesTo [0, 1] S_
  bcast_S_S36 : S_.BroadcastsInDim S36 (![] : Fin 0 → Fin S36.rank)
  reducesTo_S36_S_d0 : S36.ReducesTo [0] S_

variable [Facts]

def fn_part2 {F : FTy → Type} [FloatOps F] (main_arg7 : FVec F S16x36 .f32) (main_arg8 : FVec F S36 .f32) (main_v33 : IVec S_ 1) : IVec S_ 1 :=
  let main_v34 : FVec F S16x36 .f32 := Host.absf main_arg7
  let main_cst_12 : FVec F S_ .f32 := constant S_ .f32 0x7F800000#32
  let main_v35 : FVec F S16x36 .f32 := broadcastInDim S16x36 ![] bcast_S_S16x36 main_cst_12
  let main_v36 : IVec S16x36 1 := cmpf .olt main_v34 main_v35
  let main_c_13 : IVec S_ 1 := constantI S_ 1 1#1
  let main_v37 : IVec S_ 1 := (fun x v => Host.reduce IntOp.andi x v reducesTo_S16x36_S_d0_1 h_S_) main_v36 main_c_13
  let main_v38 : IVec S_ 1 := andi main_v33 main_v37
  let main_v39 : FVec F S36 .f32 := Host.absf main_arg8
  let main_cst_14 : FVec F S_ .f32 := constant S_ .f32 0x7F800000#32
  let main_v40 : FVec F S36 .f32 := broadcastInDim S36 ![] bcast_S_S36 main_cst_14
  let main_v41 : IVec S36 1 := cmpf .olt main_v39 main_v40
  let main_c_15 : IVec S_ 1 := constantI S_ 1 1#1
  let main_v42 : IVec S_ 1 := (fun x v => Host.reduce IntOp.andi x v reducesTo_S36_S_d0 h_S_) main_v41 main_c_15
  let main_v43 : IVec S_ 1 := andi main_v38 main_v42
  main_v43

def fn_part1 {F : FTy → Type} [FloatOps F] (main_arg4 : FVec F S16 .f32) (main_arg5 : FVec F S16 .f32) (main_arg6 : FVec F S16 .f32) (main_arg7 : FVec F S16x36 .f32) (main_arg8 : FVec F S36 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S8x192x192x64 .f32) (main_arg1 : FVec F S64x16 .f32) (main_arg2 : FVec F S16 .f32) (main_arg3 : FVec F S16 .f32) (main_arg4 : FVec F S16 .f32) (main_arg5 : FVec F S16 .f32) (main_arg6 : FVec F S16 .f32) (main_arg7 : FVec F S16x36 .f32) (main_arg8 : FVec F S36 .f32) : IVec S_ 1 :=
  let main_v0 : FVec F S8x192x192x64 .f32 := Host.absf main_arg0
  let main_cst : FVec F S_ .f32 := constant S_ .f32 0x7F800000#32
  let main_v1 : FVec F S8x192x192x64 .f32 := broadcastInDim S8x192x192x64 ![] bcast_S_S8x192x192x64 main_cst
  let main_v2 : IVec S8x192x192x64 1 := cmpf .olt main_v0 main_v1
  let main_c : IVec S_ 1 := constantI S_ 1 1#1
  let main_v3 : IVec S_ 1 := (fun x v => Host.reduce IntOp.andi x v reducesTo_S8x192x192x64_S_d0_1_2_3 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_v13 main_v16
-- ==== Kernel.lean ====
abbrev S8x192x192x64 : Shape := ⟨4, ![8, 192, 192, 64]⟩
abbrev S64x16 : Shape := ⟨2, ![64, 16]⟩
abbrev S16 : Shape := ⟨1, ![16]⟩
abbrev S16x36 : Shape := ⟨2, ![16, 36]⟩
abbrev S36 : Shape := ⟨1, ![36]⟩
abbrev S1x48x192x64 : Shape := ⟨4, ![1, 48, 192, 64]⟩
abbrev S1x1x192x64 : Shape := ⟨4, ![1, 1, 192, 64]⟩
abbrev S1x192x64 : Shape := ⟨3, ![1, 192, 64]⟩
abbrev S48x192x64 : Shape := ⟨3, ![48, 192, 64]⟩
abbrev S50x192x64 : Shape := ⟨3, ![50, 192, 64]⟩
abbrev S50x1x64 : Shape := ⟨3, ![50, 1, 64]⟩
abbrev S50x194x64 : Shape := ⟨3, ![50, 194, 64]⟩
abbrev S9216x64 : Shape := ⟨2, ![9216, 64]⟩
abbrev S9216x16 : Shape := ⟨2, ![9216, 16]⟩
abbrev S1x16 : Shape := ⟨2, ![1, 16]⟩
abbrev S9216x36 : Shape := ⟨2, ![9216, 36]⟩
abbrev S1x36 : Shape := ⟨2, ![1, 36]⟩
abbrev S48x192x9x4 : Shape := ⟨4, ![48, 192, 9, 4]⟩
abbrev S48x192x1x4 : Shape := ⟨4, ![48, 192, 1, 4]⟩
abbrev S48x192x4 : Shape := ⟨3, ![48, 192, 4]⟩

abbrev nBuf : Space → Nat
  | .hbm => 10
  | .vmem => 16
  | .smem => 0
  | _ => 0

abbrev bufTy : (tb : Table) → Fin (tcTables nBuf tb) → BufTy
  | .hbm, ⟨0, _⟩ => ⟨S8x192x192x64, .f32⟩
  | .hbm, ⟨1, _⟩ => ⟨S64x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16x36, .f32⟩
  | .hbm, ⟨8, _⟩ => ⟨S36, .f32⟩
  | .hbm, ⟨9, _⟩ => ⟨S8x192x192x64, .f32⟩
  | .local _ .vmem, ⟨0, _⟩ => ⟨S1x48x192x64, .f32⟩
  | .local _ .vmem, ⟨1, _⟩ => ⟨S1x48x192x64, .f32⟩
  | .local _ .vmem, ⟨2, _⟩ => ⟨S1x1x192x64, .f32⟩
  | .local _ .vmem, ⟨3, _⟩ => ⟨S1x1x192x64, .f32⟩
  | .local _ .vmem, ⟨4, _⟩ => ⟨S1x1x192x64, .f32⟩
  | .local _ .vmem, ⟨5, _⟩ => ⟨S1x1x192x64, .f32⟩
  | .local _ .vmem, ⟨6, _⟩ => ⟨S64x16, .f32⟩
  | .local _ .vmem, ⟨7, _⟩ => ⟨S16, .f32⟩
  | .local _ .vmem, ⟨8, _⟩ => ⟨S16, .f32⟩
  | .local _ .vmem, ⟨9, _⟩ => ⟨S16, .f32⟩
  | .local _ .vmem, ⟨10, _⟩ => ⟨S16, .f32⟩
  | .local _ .vmem, ⟨11, _⟩ => ⟨S16, .f32⟩
  | .local _ .vmem, ⟨12, _⟩ => ⟨S16x36, .f32⟩
  | .local _ .vmem, ⟨13, _⟩ => ⟨S36, .f32⟩
  | .local _ .vmem, ⟨14, _⟩ => ⟨S1x48x192x64, .f32⟩
  | .local _ .vmem, ⟨15, _⟩ => ⟨S1x48x192x64, .f32⟩
  | _, _ => ⟨S8x192x192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c48_i32_0 : BitVec 32 := 48#32
  let v1 : BitVec 32 := Scalar.addi v0 c48_i32_0
  let c191_i32 : BitVec 32 := 191#32
  let v2 : BitVec 32 := Scalar.minsi v1 c191_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x48x192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x36 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S36 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x48x192x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  inb_S1x1x192x64_S1x1x192x64_0_0_0_0 : ∀ a, (![0, 0, 0, 0] : Fin 4 → Nat) a + S1x1x192x64.size a ≤ S1x1x192x64.size a
  h_S1x1x192x64 : 0 < S1x1x192x64.numel
  shapeCasts_S1x1x192x64_S1x192x64 : S1x1x192x64.ShapeCasts S1x192x64
  inb_S1x48x192x64_S1x48x192x64_0_0_0_0 : ∀ a, (![0, 0, 0, 0] : Fin 4 → Nat) a + S1x48x192x64.size a ≤ S1x48x192x64.size a
  h_S1x48x192x64 : 0 < S1x48x192x64.numel
  shapeCasts_S1x48x192x64_S48x192x64 : S1x48x192x64.ShapeCasts S48x192x64
  concatenates_S1x192x64_S48x192x64_S1x192x64_S50x192x64_d0 : Shape.Concatenates [S1x192x64, S48x192x64, S1x192x64] S50x192x64 0
  concatenates_S50x1x64_S50x192x64_S50x1x64_S50x194x64_d1 : Shape.Concatenates [S50x1x64, S50x192x64, S50x1x64] S50x194x64 1
  shapeCasts_S48x192x64_S9216x64 : S48x192x64.ShapeCasts S9216x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S9216x16 : S1x16.Broadcasts S9216x16
  inb_S16x36_S16x36_0_0 : ∀ a, (![0, 0] : Fin 2 → Nat) a + S16x36.size a ≤ S16x36.size a
  h_S16x36 : 0 < S16x36.numel
  inb_S36_S36_0 : ∀ a, (![0] : Fin 1 → Nat) a + S36.size a ≤ S36.size a
  h_S36 : 0 < S36.numel
  shapeCasts_S36_S1x36 : S36.ShapeCasts S1x36
  broadcasts_S1x36_S9216x36 : S1x36.Broadcasts S9216x36
  shapeCasts_S9216x36_S48x192x9x4 : S9216x36.ShapeCasts S48x192x9x4
  slices_S50x194x64_o0_0_0_S48x192x64 : S50x194x64.Slices ![0, 0, 0] S48x192x64
  slices_S48x192x9x4_o0_0_0_0_S48x192x1x4 : S48x192x9x4.Slices ![0, 0, 0, 0] S48x192x1x4
  shapeCasts_S48x192x1x4_S48x192x4 : S48x192x1x4.ShapeCasts S48x192x4
  concatenates_S48x192x4_S48x192x4_S48x192x4_S48x192x4_S48x192x4_S48x192x4_S48x192x4_S48x192x4_S48x192x4_S48x192x4_S48x192x4_S48x192x4_S48x192x4_S48x192x4_S48x192x4_S48x192x4_S48x192x64_d2 : Shape.Concatenates [S48x192x4, S48x192x4, S48x192x4, S48x192x4, S48x192x4, S48x192x4, S48x192x4, S48x192x4, S48x192x4, S48x192x4, S48x192x4, S48x192x4, S48x192x4, S48x192x4, S48x192x4, S48x192x4] S48x192x64 2
  slices_S50x194x64_o0_1_0_S48x192x64 : S50x194x64.Slices ![0, 1, 0] S48x192x64
  slices_S48x192x9x4_o0_0_1_0_S48x192x1x4 : S48x192x9x4.Slices ![0, 0, 1, 0] S48x192x1x4
  slices_S50x194x64_o0_2_0_S48x192x64 : S50x194x64.Slices ![0, 2, 0] S48x192x64
  slices_S48x192x9x4_o0_0_2_0_S48x192x1x4 : S48x192x9x4.Slices ![0, 0, 2, 0] S48x192x1x4
  slices_S50x194x64_o1_0_0_S48x192x64 : S50x194x64.Slices ![1, 0, 0] S48x192x64
  slices_S48x192x9x4_o0_0_3_0_S48x192x1x4 : S48x192x9x4.Slices ![0, 0, 3, 0] S48x192x1x4
  slices_S50x194x64_o1_1_0_S48x192x64 : S50x194x64.Slices ![1, 1, 0] S48x192x64
  slices_S48x192x9x4_o0_0_4_0_S48x192x1x4 : S48x192x9x4.Slices ![0, 0, 4, 0] S48x192x1x4
  slices_S50x194x64_o1_2_0_S48x192x64 : S50x194x64.Slices ![1, 2, 0] S48x192x64
  slices_S48x192x9x4_o0_0_5_0_S48x192x1x4 : S48x192x9x4.Slices ![0, 0, 5, 0] S48x192x1x4
  slices_S50x194x64_o2_0_0_S48x192x64 : S50x194x64.Slices ![2, 0, 0] S48x192x64
  slices_S48x192x9x4_o0_0_6_0_S48x192x1x4 : S48x192x9x4.Slices ![0, 0, 6, 0] S48x192x1x4
  slices_S50x194x64_o2_1_0_S48x192x64 : S50x194x64.Slices ![2, 1, 0] S48x192x64
  slices_S48x192x9x4_o0_0_7_0_S48x192x1x4 : S48x192x9x4.Slices ![0, 0, 7, 0] S48x192x1x4
  slices_S50x194x64_o2_2_0_S48x192x64 : S50x194x64.Slices ![2, 2, 0] S48x192x64
  slices_S48x192x9x4_o0_0_8_0_S48x192x1x4 : S48x192x9x4.Slices ![0, 0, 8, 0] S48x192x1x4
  shapeCasts_S48x192x64_S1x48x192x64 : S48x192x64.ShapeCasts S1x48x192x64
  dot_S9216x64_S64x16_S9216x16_1_0_0_1_n_n_wf : DotDims.WF S9216x64 S64x16 S9216x16 [1] [0] [0] [1] [] []
  dot_S9216x16_S16x36_S9216x36_1_0_0_1_n_n_wf : DotDims.WF S9216x16 S16x36 S9216x36 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x192x64.size a ≤ S8x192x192x64.size a
  hwx0_0 : ∀ i : grid0.Coords, EltTy.bits .f32 = 32 ∨ (Rect.block (s := S8x192x192x64) S1x48x192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x192x64.size a ≤ S8x192x192x64.size a
  hwx0_1 : ∀ i : grid0.Coords, EltTy.bits .f32 = 32 ∨ (Rect.block (s := S8x192x192x64) S1x1x192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x192x64.size a ≤ S8x192x192x64.size a
  hwx0_2 : ∀ i : grid0.Coords, EltTy.bits .f32 = 32 ∨ (Rect.block (s := S8x192x192x64) S1x1x192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x36.size a ≤ S16x36.size a
  hwx0_9 : ∀ i : grid0.Coords, EltTy.bits .f32 = 32 ∨ (Rect.block (s := S16x36) S16x36.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S36.size a ≤ S36.size a
  hwx0_10 : ∀ i : grid0.Coords, EltTy.bits .f32 = 32 ∨ (Rect.block (s := S36) S36.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x48x192x64.size a ≤ S8x192x192x64.size a
  hwx0_11 : ∀ i : grid0.Coords, EltTy.bits .f32 = 32 ∨ (Rect.block (s := S8x192x192x64) S1x48x192x64.size (cc0_transform_11 i) (hinb0_11 i)).WholeWords (EltTy.packing .f32)

variable [Facts₀]

def dot_S9216x64_S64x16_S9216x16_1_0_0_1_n_n : DotDims S9216x64 S64x16 S9216x16 where
  lhsContracting := [1]
  rhsContracting := [0]
  lhsNonContracting := [0]
  rhsNonContracting := [1]
  lhsBatch := []
  rhsBatch := []
  wf := dot_S9216x64_S64x16_S9216x16_1_0_0_1_n_n_wf
def dot_S9216x16_S16x36_S9216x36_1_0_0_1_n_n : DotDims S9216x16 S16x36 S9216x36 where
  lhsContracting := [1]
  rhsContracting := [0]
  lhsNonContracting := [0]
  rhsNonContracting := [1]
  lhsBatch := []
  rhsBatch := []
  wf := dot_S9216x16_S16x36_S9216x36_1_0_0_1_n_n_wf

abbrev win0_0 : Pipeline.Window sig grid0 :=
  Pipeline.Window.ofSpec (Memref.whole main_arg0) S1x48x192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S16x36.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S36.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x48x192x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x192x192x64 : Shape := ⟨4, ![8, 192, 192, 64]⟩
abbrev S64x16 : Shape := ⟨2, ![64, 16]⟩
abbrev S16 : Shape := ⟨1, ![16]⟩
abbrev S16x36 : Shape := ⟨2, ![16, 36]⟩
abbrev S36 : Shape := ⟨1, ![36]⟩
abbrev S8x192x192x16 : Shape := ⟨4, ![8, 192, 192, 16]⟩
abbrev S1x1x1x16 : Shape := ⟨4, ![1, 1, 1, 16]⟩
abbrev S_ : Shape := ⟨0, ![]⟩
abbrev S8x192x192x36 : Shape := ⟨4, ![8, 192, 192, 36]⟩
abbrev S1x1x1x36 : Shape := ⟨4, ![1, 1, 1, 36]⟩
abbrev S8x192x192x9x1x4 : Shape := ⟨6, ![8, 192, 192, 9, 1, 4]⟩
abbrev S8x194x194x64 : Shape := ⟨4, ![8, 194, 194, 64]⟩
abbrev S8x192x192x1x64 : Shape := ⟨5, ![8, 192, 192, 1, 64]⟩
abbrev S8x192x192x9x64 : Shape := ⟨5, ![8, 192, 192, 9, 64]⟩
abbrev S8x192x192x9x16x4 : Shape := ⟨6, ![8, 192, 192, 9, 16, 4]⟩
abbrev S8x192x192x16x4 : Shape := ⟨5, ![8, 192, 192, 16, 4]⟩

abbrev nBuf : Space → Nat
  | .hbm => 65
  | .vmem => 0
  | .smem => 0
  | _ => 0

abbrev bufTy : (tb : Table) → Fin (tcTables nBuf tb) → BufTy
  | .hbm, ⟨0, _⟩ => ⟨S8x192x192x64, .f32⟩
  | .hbm, ⟨1, _⟩ => ⟨S64x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16x36, .f32⟩
  | .hbm, ⟨8, _⟩ => ⟨S36, .f32⟩
  | .hbm, ⟨9, _⟩ => ⟨S8x192x192x16, .f32⟩
  | .hbm, ⟨10, _⟩ => ⟨S1x1x1x16, .f32⟩
  | .hbm, ⟨11, _⟩ => ⟨S8x192x192x16, .f32⟩
  | .hbm, ⟨12, _⟩ => ⟨S8x192x192x16, .f32⟩
  | .hbm, ⟨13, _⟩ => ⟨S1x1x1x16, .f32⟩
  | .hbm, ⟨14, _⟩ => ⟨S8x192x192x16, .f32⟩
  | .hbm, ⟨15, _⟩ => ⟨S8x192x192x16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S1x1x1x16, .f32⟩
  | .hbm, ⟨21, _⟩ => ⟨S8x192x192x16, .f32⟩
  | .hbm, ⟨22, _⟩ => ⟨S8x192x192x16, .f32⟩
  | .hbm, ⟨23, _⟩ => ⟨S1x1x1x16, .f32⟩
  | .hbm, ⟨24, _⟩ => ⟨S8x192x192x16, .f32⟩
  | .hbm, ⟨25, _⟩ => ⟨S8x192x192x16, .f32⟩
  | .hbm, ⟨26, _⟩ => ⟨S1x1x1x16, .f32⟩
  | .hbm, ⟨27, _⟩ => ⟨S8x192x192x16, .f32⟩
  | .hbm, ⟨28, _⟩ => ⟨S8x192x192x16, .f32⟩
  | .hbm, ⟨29, _⟩ => ⟨S_, .f32⟩
  | .hbm, ⟨30, _⟩ => ⟨S8x192x192x16, .f32⟩
  | .hbm, ⟨31, _⟩ => ⟨S8x192x192x16, .f32⟩
  | .hbm, ⟨32, _⟩ => ⟨S8x192x192x36, .f32⟩
  | .hbm, ⟨33, _⟩ => ⟨S1x1x1x36, .f32⟩
  | .hbm, ⟨34, _⟩ => ⟨S8x192x192x36, .f32⟩
  | .hbm, ⟨35, _⟩ => ⟨S8x192x192x36, .f32⟩
  | .hbm, ⟨36, _⟩ => ⟨S8x192x192x9x1x4, .f32⟩
  | .hbm, ⟨37, _⟩ => ⟨S_, .i32⟩
  | .hbm, ⟨38, _⟩ => ⟨S_, .f32⟩
  | .hbm, ⟨39, _⟩ => ⟨S8x194x194x64, .f32⟩
  | .hbm, ⟨40, _⟩ => ⟨S8x192x192x64, .f32⟩
  | .hbm, ⟨41, _⟩ => ⟨S8x192x192x64, .f32⟩
  | .hbm, ⟨42, _⟩ => ⟨S8x192x192x64, .f32⟩
  | .hbm, ⟨43, _⟩ => ⟨S8x192x192x64, .f32⟩
  | .hbm, ⟨44, _⟩ => ⟨S8x192x192x64, .f32⟩
  | .hbm, ⟨45, _⟩ => ⟨S8x192x192x64, .f32⟩
  | .hbm, ⟨46, _⟩ => ⟨S8x192x192x64, .f32⟩
  | .hbm, ⟨47, _⟩ => ⟨S8x192x192x64, .f32⟩
  | .hbm, ⟨48, _⟩ => ⟨S8x192x192x64, .f32⟩
  | .hbm, ⟨49, _⟩ => ⟨S8x192x192x1x64, .f32⟩
  | .hbm, ⟨50, _⟩ => ⟨S8x192x192x1x64, .f32⟩
  | .hbm, ⟨51, _⟩ => ⟨S8x192x192x1x64, .f32⟩
  | .hbm, ⟨52, _⟩ => ⟨S8x192x192x1x64, .f32⟩
  | .hbm, ⟨53, _⟩ => ⟨S8x192x192x1x64, .f32⟩
  | .hbm, ⟨54, _⟩ => ⟨S8x192x192x1x64, .f32⟩
  | .hbm, ⟨55, _⟩ => ⟨S8x192x192x1x64, .f32⟩
  | .hbm, ⟨56, _⟩ => ⟨S8x192x192x1x64, .f32⟩
  | .hbm, ⟨57, _⟩ => ⟨S8x192x192x1x64, .f32⟩
  | .hbm, ⟨58, _⟩ => ⟨S8x192x192x9x64, .f32⟩
  | .hbm, ⟨59, _⟩ => ⟨S8x192x192x9x16x4, .f32⟩
  | .hbm, ⟨60, _⟩ => ⟨S8x192x192x9x16x4, .f32⟩
  | .hbm, ⟨61, _⟩ => ⟨S8x192x192x9x16x4, .f32⟩
  | .hbm, ⟨62, _⟩ => ⟨S_, .f32⟩
  | .hbm, ⟨63, _⟩ => ⟨S8x192x192x16x4, .f32⟩
  | .hbm, ⟨64, _⟩ => ⟨S8x192x192x64, .f32⟩
  | _, _ => ⟨S8x192x192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call1_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_0 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  bcast_S16_S1x1x1x16_3 : S16.BroadcastsInDim S1x1x1x16 (![3] : Fin 1 → Fin S1x1x1x16.rank)
  bcast_S1x1x1x16_S8x192x192x16_0_1_2_3 : S1x1x1x16.BroadcastsInDim S8x192x192x16 (![0, 1, 2, 3] : Fin 4 → Fin S8x192x192x16.rank)
  bcast_S_S16 : S_.BroadcastsInDim S16 (![] : Fin 0 → Fin S16.rank)
  bcast_S_S8x192x192x16 : S_.BroadcastsInDim S8x192x192x16 (![] : Fin 0 → Fin S8x192x192x16.rank)
  bcast_S36_S1x1x1x36_3 : S36.BroadcastsInDim S1x1x1x36 (![3] : Fin 1 → Fin S1x1x1x36.rank)
  bcast_S1x1x1x36_S8x192x192x36_0_1_2_3 : S1x1x1x36.BroadcastsInDim S8x192x192x36 (![0, 1, 2, 3] : Fin 4 → Fin S8x192x192x36.rank)
  shapeCasts_S8x192x192x36_S8x192x192x9x1x4 : S8x192x192x36.ShapeCasts S8x192x192x9x1x4
  pads_S8x192x192x64_S8x194x194x64_000_110_110_000 : S8x192x192x64.Pads (![0, 1, 1, 0] : Fin 4 → Nat) ![0, 1, 1, 0] ![0, 0, 0, 0] S8x194x194x64
  h_S_ : 0 < S_.numel
  slices_S8x194x194x64_S8x192x192x64_0_0_0_0 : S8x194x194x64.Slices ![0, 0, 0, 0] S8x192x192x64
  slices_S8x194x194x64_S8x192x192x64_0_0_1_0 : S8x194x194x64.Slices ![0, 0, 1, 0] S8x192x192x64
  slices_S8x194x194x64_S8x192x192x64_0_0_2_0 : S8x194x194x64.Slices ![0, 0, 2, 0] S8x192x192x64
  slices_S8x194x194x64_S8x192x192x64_0_1_0_0 : S8x194x194x64.Slices ![0, 1, 0, 0] S8x192x192x64
  slices_S8x194x194x64_S8x192x192x64_0_1_1_0 : S8x194x194x64.Slices ![0, 1, 1, 0] S8x192x192x64
  slices_S8x194x194x64_S8x192x192x64_0_1_2_0 : S8x194x194x64.Slices ![0, 1, 2, 0] S8x192x192x64
  slices_S8x194x194x64_S8x192x192x64_0_2_0_0 : S8x194x194x64.Slices ![0, 2, 0, 0] S8x192x192x64
  slices_S8x194x194x64_S8x192x192x64_0_2_1_0 : S8x194x194x64.Slices ![0, 2, 1, 0] S8x192x192x64
  slices_S8x194x194x64_S8x192x192x64_0_2_2_0 : S8x194x194x64.Slices ![0, 2, 2, 0] S8x192x192x64
  bcast_S8x192x192x64_S8x192x192x1x64_0_1_2_4 : S8x192x192x64.BroadcastsInDim S8x192x192x1x64 (![0, 1, 2, 4] : Fin 4 → Fin S8x192x192x1x64.rank)
  concatenates_S8x192x192x1x64_S8x192x192x1x64_S8x192x192x1x64_S8x192x192x1x64_S8x192x192x1x64_S8x192x192x1x64_S8x192x192x1x64_S8x192x192x1x64_S8x192x192x1x64_S8x192x192x9x64_d3 : Shape.Concatenates [S8x192x192x1x64, S8x192x192x1x64, S8x192x192x1x64, S8x192x192x1x64, S8x192x192x1x64, S8x192x192x1x64, S8x192x192x1x64, S8x192x192x1x64, S8x192x192x1x64] S8x192x192x9x64 3
  shapeCasts_S8x192x192x9x64_S8x192x192x9x16x4 : S8x192x192x9x64.ShapeCasts S8x192x192x9x16x4
  bcast_S8x192x192x9x1x4_S8x192x192x9x16x4_0_1_2_3_4_5 : S8x192x192x9x1x4.BroadcastsInDim S8x192x192x9x16x4 (![0, 1, 2, 3, 4, 5] : Fin 6 → Fin S8x192x192x9x16x4.rank)
  reducesTo_S8x192x192x9x16x4_S8x192x192x16x4_d3 : S8x192x192x9x16x4.ReducesTo [3] S8x192x192x16x4
  shapeCasts_S8x192x192x16x4_S8x192x192x64 : S8x192x192x16x4.ShapeCasts S8x192x192x64
  dot_S8x192x192x64_S64x16_S8x192x192x16_3_0_012_1_n_n_wf : DotDims.WF S8x192x192x64 S64x16 S8x192x192x16 [3] [0] [0, 1, 2] [1] [] []
  dot_S8x192x192x16_S16x36_S8x192x192x36_3_0_012_1_n_n_wf : DotDims.WF S8x192x192x16 S16x36 S8x192x192x36 [3] [0] [0, 1, 2] [1] [] []

variable [Facts₀]

def dot_S8x192x192x64_S64x16_S8x192x192x16_3_0_012_1_n_n : DotDims S8x192x192x64 S64x16 S8x192x192x16 where
  lhsContracting := [3]
  rhsContracting := [0]
  lhsNonContracting := [0, 1, 2]
  rhsNonContracting := [1]
  lhsBatch := []
  rhsBatch := []
  wf := dot_S8x192x192x64_S64x16_S8x192x192x16_3_0_012_1_n_n_wf
def dot_S8x192x192x16_S16x36_S8x192x192x36_3_0_012_1_n_n : DotDims S8x192x192x16 S16x36 S8x192x192x36 where
  lhsContracting := [3]
  rhsContracting := [0]
  lhsNonContracting := [0, 1, 2]
  rhsNonContracting := [1]
  lhsBatch := []
  rhsBatch := []
  wf := dot_S8x192x192x16_S16x36_S8x192x192x36_3_0_012_1_n_n_wf

class Facts : Prop extends Facts₀ where

variable [Facts]
-- ==== Proof.KernelBlockFn.lean ====
/-
  What one grid point of the kernel stores into its output tile, as ONE pure function of the blocks it loads: the
  body's payloads composed in program order (the halo window, the bottleneck before and after the batch norm's
  scale, the generated weights, and the nine multiply-adds).
-/
import proofs.«121993_j19739669692648_1_alg».proof.Proof.Gen.Kernel.Skeleton

noncomputable section

namespace Cert.Kernel.Tile

open Idealize.ShloMosaic Cert.Kernel Cert.Kernel.Gen

variable {F : FTy → Type} [FloatOps F]

/-- The tile the body stores at grid point `i`, from the centre block `xc`, the halo rows `xt` (above) and `xb`
    (below) and the eight parameter arrays. -/
def outBlock (i : grid0.Coords) (xc : Vec F S1x48x192x64 .f32) (xt xb : Vec F S1x1x192x64 .f32) (w1 : Vec F S64x16 .f32)
    (b1 gamma beta mean var : Vec F S16 .f32) (w2 : Vec F S16x36 .f32) (b2 : Vec F S36 .f32) : Vec F S1x48x192x64 .f32 :=
  k0_pay1 (k0_pay3 i xt xb xc)
    (k0_pay6 (k0_pay4 xc w1 b1 mean) (k0_pay5 var) gamma beta w2 b2)
    (k0_pay7 (k0_pay3 i xt xb xc) (k0_pay4 xc w1 b1 mean) (k0_pay5 var) gamma beta w2 b2)
    (k0_pay8 (k0_pay3 i xt xb xc))

end Cert.Kernel.Tile

end
-- ==== Proof.LibSharedFrame.lean ====
/-
  The frame run of a one-region pipeline kernel whose input windows may SHARE an array (one array handed to the
  kernel through several windows, read at different blocks).

  For distinct arrays every window's array is held whole at the full share; when several input windows read one
  array the share is dealt among them, and how the buffers behind the arrays make the proof data's arrays at the
  region's entry is the one thing such a run states beyond the plain frame run (`hsplit`). Everything else is the
  plain run's: the kernel has no semaphore of its own, carries nothing between grid points but its staging
  buffers (its invariant is the core's scoped buffers that are no staging buffer, at any contents), and every
  unscoped buffer that is no window's array bypasses the region unchanged.

  `θ_run_frame_shared` concludes the same post as the plain frame run: every window's array at `Dat.arrAt … N`
  and every bypassing buffer at its region-entry contents.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN of a kernel whose windows may share arrays: from the layout facts that do not ask the arrays to be
    distinct (`hinj`, `hw`, `hne`, `harr`, `hstage`), the body obligation, @main up to the region (`hmain`, with the
    buffers' contents there `V`), the arrays' shares dealt at entry (`hsplit`) and the invariant the scoped rest
    (`hΦ`): every weakly fair execution terminates, every window's array ends at what the library computes from the
    proof data and every other unscoped buffer as the region found it. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfg).spec c (V c) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩; iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline

end
-- ==== Proof.KernelRun.lean ====
/-
  The kernel's run on its grid of 8 images by 4 row tiles, and what it leaves in memory.

  Every grid point loads the centre tile (48 rows), the row above and the row below it — three windows on the ONE
  input array, which is why the array's ownership is dealt in three shares among them — and the eight parameter
  arrays, and stores the whole output tile once. So what a point leaves in the output window's buffer is one
  function of the blocks it loads (`tileOut`: the body's single store over `Tile.outBlock`), each input window's
  buffer holds its block at every point whether it was fetched there or not, nothing is carried between points,
  and the run ends with every argument array unchanged and the result array at the write-backs of the tiles.
-/
import proofs.«121993_j19739669692648_1_alg».proof.Proof.Gen.Kernel.Launch
import proofs.«121993_j19739669692648_1_alg».proof.Proof.Gen.Kernel.Skeleton
import proofs.«121993_j19739669692648_1_alg».proof.Proof.Gen.Kernel.Points
import proofs.«121993_j19739669692648_1_alg».proof.Proof.KernelBlockFn
import proofs.«121993_j19739669692648_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- The buffers as the region finds them: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, whenever the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not, whenever the body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not, whenever the body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not, whenever the body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not, whenever the body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not, whenever the body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not, whenever the body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not, whenever the body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not, whenever the body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not, whenever the body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not, whenever the body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is loaded, and the output stored, whole -/

abbrev rTile : Rect S1x48x192x64 := Rect.unit (s := S1x48x192x64) ![0, 0, 0, 0] S1x48x192x64.size inb_S1x48x192x64_S1x48x192x64_0_0_0_0
abbrev rRow : Rect S1x1x192x64 := Rect.unit (s := S1x1x192x64) ![0, 0, 0, 0] S1x1x192x64.size inb_S1x1x192x64_S1x1x192x64_0_0_0_0
abbrev rW1 : Rect S64x16 := Rect.unit (s := S64x16) ![0, 0] S64x16.size inb_S64x16_S64x16_0_0
abbrev rV16 : Rect S16 := Rect.unit (s := S16) ![0] S16.size inb_S16_S16_0
abbrev rW2 : Rect S16x36 := Rect.unit (s := S16x36) ![0, 0] S16x36.size inb_S16x36_S16x36_0_0
abbrev rV36 : Rect S36 := Rect.unit (s := S36) ![0] S36.size inb_S36_S36_0

/-- What the body leaves in the output window's buffer, from the input buffers' contents: its one store, of the tile
    function of what it loaded. -/
def tileOut (i : grid0.Coords) (x0 : Vec F S1x48x192x64 .f32) (x1 : Vec F S1x1x192x64 .f32) (x2 : Vec F S1x1x192x64 .f32) (x3 : Vec F S64x16 .f32) (x4 : Vec F S16 .f32) (x5 : Vec F S16 .f32) (x6 : Vec F S16 .f32) (x7 : Vec F S16 .f32) (x8 : Vec F S16 .f32) (x9 : Vec F S16x36 .f32) (x10 : Vec F S36 .f32) : Vec F S1x48x192x64 .f32 :=
  View.canon [⟨rTile, outBlock i (View.ld x0 rTile) (View.ld x1 rRow) (View.ld x2 rRow) (View.ld x3 rW1) (View.ld x4 rV16) (View.ld x5 rV16) (View.ld x6 rV16) (View.ld x7 rV16) (View.ld x8 rV16) (View.ld x9 rW2) (View.ld x10 rV36)⟩]

/-- The one store covers the buffer. -/
theorem cover_tile (p0 : Vec F S1x48x192x64 .f32) (y : S1x48x192x64.Idx) :
    ∃ pc ∈ ([⟨rTile, p0⟩] : List (View.Piece (Elt F) S1x48x192x64 .f32)), y ∈ pc.1.set :=
  View.cover_of_tiled [⟨rTile, p0⟩] S1x48x192x64.size (by rfl) y

/-! ## The body's triple -/

set_option maxHeartbeats 4000000 in
/-- On whole buffers, the inputs' at contents `xW` and the output's at anything, the body runs to the continuation
    holding the inputs' as they were and the output's at `tileOut` of them. -/
theorem sound_kernel (c : Dev nD) (E : Set ℕ) (i : grid0.Coords) (arg2 : Memref sig .tc .vmem S1x48x192x64 .f32) (harg2 : arg2.IsWhole) (arg3 : Memref sig .tc .vmem S1x1x192x64 .f32) (harg3 : arg3.IsWhole) (arg4 : Memref sig .tc .vmem S1x1x192x64 .f32) (harg4 : arg4.IsWhole) (arg5 : Memref sig .tc .vmem S64x16 .f32) (harg5 : arg5.IsWhole) (arg6 : Memref sig .tc .vmem S16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S16 .f32) (harg10 : arg10.IsWhole) (arg11 : Memref sig .tc .vmem S16x36 .f32) (harg11 : arg11.IsWhole) (arg12 : Memref sig .tc .vmem S36 .f32) (harg12 : arg12.IsWhole) (arg13 : Memref sig .tc .vmem S1x48x192x64 .f32) (harg13 : arg13.IsWhole)
    (x0 : Vec F S1x48x192x64 .f32) (x1 : Vec F S1x1x192x64 .f32) (x2 : Vec F S1x1x192x64 .f32) (x3 : Vec F S64x16 .f32) (x4 : Vec F S16 .f32) (x5 : Vec F S16 .f32) (x6 : Vec F S16 .f32) (x7 : Vec F S16 .f32) (x8 : Vec F S16 .f32) (x9 : Vec F S16x36 .f32) (x10 : Vec F S36 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (tileOut i x0 x1 x2 x3 x4 x5 x6 x7 x8 x9 x10)) -∗ K ⟨⟩))
      ⊢ wp frame (wpE (defs₀ (F := F)) Variants.none c none) E (cc0_kernel_fn i arg2 harg2 arg3 harg3 arg4 harg4 arg5 harg5 arg6 harg6 arg7 harg7 arg8 harg8 arg9 harg9 arg10 harg10 arg11 harg11 arg12 harg12 arg13 harg13) K := by
  simp only [cc0_kernel_fn_eq_skeleton]; unfold cc0_kernel_fn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_tile _)

/-! ## The proof data -/

/-- At every point each input window's buffer is left at its block and the output window's at the tile function of
    the input blocks; the input array is held in three shares by the three windows on it, every other array whole;
    nothing is carried between points but the core's other scoped buffers, untouched; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileOut (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) :
    (dats m 0 c).after 11 t = tileOut (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

end Cert.Kernel.Run

end
-- ==== Proof.KernelFrame.lean ====
/-
  The launch of the kernel's one region and the frame: how the input array, read by three windows, is dealt among
  them at the region's entry, the run over the grid from the body's obligation, and what it leaves: the result
  array at the tiles' write-backs, the nine argument arrays unchanged.
-/
import proofs.«121993_j19739669692648_1_alg».proof.Proof.KernelRun
import proofs.«121993_j19739669692648_1_alg».proof.Proof.LibSharedFrame
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry: the input array in three shares -/

theorem share0 (c : Dev nD) : (dats m 0 c).share 0 = fullShare.left := rfl
theorem share1 (c : Dev nD) : (dats m 0 c).share 1 = fullShare.right.left := rfl
theorem share2 (c : Dev nD) : (dats m 0 c).share 2 = fullShare.right.right := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl

/-- The buffers behind the arrays, each whole at the full share, make the proof data's arrays at entry: the input
    array's share is halved, and its right half halved again, for the three windows that read it. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_arg2, main_arg3, main_arg4, main_arg5, main_arg6, main_arg7, main_arg8, main_v0] (by decide) (by decide), bigSep_W0]
  simp only [View.set_whole, share0, share1, share2, share3, share4, share5, share6, share7, share8, share9, share10, share11]
  refine (show iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_arg7) ↦{fullShare} V m c main_arg7) ∗ (((c.tc : Thread nD τ).loc main_arg8) ↦{fullShare} V m c main_arg8) ∗ (((c.tc : Thread nD τ).loc main_v0) ↦{fullShare} V m c main_v0)) ⊢ _ from ?_)
  iintro ⟨H0, H1, H2, H3, H4, H5, H6, H7, H8, H9⟩
  ihave H0 := (pointsTo_share (PosShare.mem_left_op_right fullShare)).1 $$ H0
  icases H0 with ⟨H0l, H0r⟩
  ihave H0r := (pointsTo_share (PosShare.mem_left_op_right fullShare.right)).1 $$ H0r
  icases H0r with ⟨H0rl, H0rr⟩
  isplitl [H0l]; · iexact H0l
  isplitl [H0rl]; · iexact H0rl
  isplitl [H0rr]; · iexact H0rr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run -/

set_option backward.isDefEq.respectTransparency.types false in
/-- From any memory with zero counters every weakly fair execution terminates; every window's array ends at what the
    write-backs leave there and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hΦ := fun _ _ => rfl)

/-- The run with the result array named and the nine argument arrays unchanged (an input array is never written). -/
theorem run_named : θ_run defs (onTc (τ := τ) (main (F := F))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 11,
      ((h c).1 0).trans (((dats m 0 c).arrAt_in 0 rfl _).trans (A_eq m c 0)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10))⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

end Cert.Kernel.Run

end
-- ==== Proof.BlockFn.lean ====
/-
  What one grid point of the kernel stores into its output tile, as ONE pure function of the blocks it loads: the
  body's payloads composed in program order (the halo window, the bottleneck before and after the batch norm's
  scale, the generated weights, and the nine multiply-adds).
-/
import proofs.«121993_j19739669692648_1_alg».proof.Proof.Gen.KernelIdeal.Skeleton

noncomputable section

namespace Cert.KernelIdeal.Tile

open Idealize.ShloMosaic Cert.KernelIdeal Cert.KernelIdeal.Gen

variable {F : FTy → Type} [FloatOps F]

/-- The tile the body stores at grid point `i`, from the centre block `xc`, the halo rows `xt` (above) and `xb`
    (below) and the eight parameter arrays. -/
def outBlock (i : grid0.Coords) (xc : Vec F S1x48x192x64 .f32) (xt xb : Vec F S1x1x192x64 .f32) (w1 : Vec F S64x16 .f32)
    (b1 gamma beta mean var : Vec F S16 .f32) (w2 : Vec F S16x36 .f32) (b2 : Vec F S36 .f32) : Vec F S1x48x192x64 .f32 :=
  k0_pay1 (k0_pay3 i xt xb xc)
    (k0_pay6 (k0_pay4 xc w1 b1 mean) (k0_pay5 var) gamma beta w2 b2)
    (k0_pay7 (k0_pay3 i xt xb xc) (k0_pay4 xc w1 b1 mean) (k0_pay5 var) gamma beta w2 b2)
    (k0_pay8 (k0_pay3 i xt xb xc))

end Cert.KernelIdeal.Tile

end
-- ==== Proof.KernelIdealRun.lean ====
/-
  The kernel's run on its grid of 8 images by 4 row tiles, and what it leaves in memory.

  Every grid point loads the centre tile (48 rows), the row above and the row below it — three windows on the ONE
  input array, which is why the array's ownership is dealt in three shares among them — and the eight parameter
  arrays, and stores the whole output tile once. So what a point leaves in the output window's buffer is one
  function of the blocks it loads (`tileOut`: the body's single store over `Tile.outBlock`), each input window's
  buffer holds its block at every point whether it was fetched there or not, nothing is carried between points,
  and the run ends with every argument array unchanged and the result array at the write-backs of the tiles.
-/
import proofs.«121993_j19739669692648_1_alg».proof.Proof.Gen.KernelIdeal.Launch
import proofs.«121993_j19739669692648_1_alg».proof.Proof.Gen.KernelIdeal.Skeleton
import proofs.«121993_j19739669692648_1_alg».proof.Proof.Gen.KernelIdeal.Points
import proofs.«121993_j19739669692648_1_alg».proof.Proof.BlockFn
import proofs.«121993_j19739669692648_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- The buffers as the region finds them: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, whenever the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not, whenever the body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not, whenever the body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not, whenever the body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not, whenever the body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not, whenever the body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not, whenever the body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not, whenever the body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not, whenever the body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not, whenever the body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not, whenever the body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is loaded, and the output stored, whole -/

abbrev rTile : Rect S1x48x192x64 := Rect.unit (s := S1x48x192x64) ![0, 0, 0, 0] S1x48x192x64.size inb_S1x48x192x64_S1x48x192x64_0_0_0_0
abbrev rRow : Rect S1x1x192x64 := Rect.unit (s := S1x1x192x64) ![0, 0, 0, 0] S1x1x192x64.size inb_S1x1x192x64_S1x1x192x64_0_0_0_0
abbrev rW1 : Rect S64x16 := Rect.unit (s := S64x16) ![0, 0] S64x16.size inb_S64x16_S64x16_0_0
abbrev rV16 : Rect S16 := Rect.unit (s := S16) ![0] S16.size inb_S16_S16_0
abbrev rW2 : Rect S16x36 := Rect.unit (s := S16x36) ![0, 0] S16x36.size inb_S16x36_S16x36_0_0
abbrev rV36 : Rect S36 := Rect.unit (s := S36) ![0] S36.size inb_S36_S36_0

/-- What the body leaves in the output window's buffer, from the input buffers' contents: its one store, of the tile
    function of what it loaded. -/
def tileOut (i : grid0.Coords) (x0 : Vec F S1x48x192x64 .f32) (x1 : Vec F S1x1x192x64 .f32) (x2 : Vec F S1x1x192x64 .f32) (x3 : Vec F S64x16 .f32) (x4 : Vec F S16 .f32) (x5 : Vec F S16 .f32) (x6 : Vec F S16 .f32) (x7 : Vec F S16 .f32) (x8 : Vec F S16 .f32) (x9 : Vec F S16x36 .f32) (x10 : Vec F S36 .f32) : Vec F S1x48x192x64 .f32 :=
  View.canon [⟨rTile, outBlock i (View.ld x0 rTile) (View.ld x1 rRow) (View.ld x2 rRow) (View.ld x3 rW1) (View.ld x4 rV16) (View.ld x5 rV16) (View.ld x6 rV16) (View.ld x7 rV16) (View.ld x8 rV16) (View.ld x9 rW2) (View.ld x10 rV36)⟩]

/-- The one store covers the buffer. -/
theorem cover_tile (p0 : Vec F S1x48x192x64 .f32) (y : S1x48x192x64.Idx) :
    ∃ pc ∈ ([⟨rTile, p0⟩] : List (View.Piece (Elt F) S1x48x192x64 .f32)), y ∈ pc.1.set :=
  View.cover_of_tiled [⟨rTile, p0⟩] S1x48x192x64.size (by rfl) y

/-! ## The body's triple -/

set_option maxHeartbeats 4000000 in
/-- On whole buffers, the inputs' at contents `xW` and the output's at anything, the body runs to the continuation
    holding the inputs' as they were and the output's at `tileOut` of them. -/
theorem sound_kernel (c : Dev nD) (E : Set ℕ) (i : grid0.Coords) (arg2 : Memref sig .tc .vmem S1x48x192x64 .f32) (harg2 : arg2.IsWhole) (arg3 : Memref sig .tc .vmem S1x1x192x64 .f32) (harg3 : arg3.IsWhole) (arg4 : Memref sig .tc .vmem S1x1x192x64 .f32) (harg4 : arg4.IsWhole) (arg5 : Memref sig .tc .vmem S64x16 .f32) (harg5 : arg5.IsWhole) (arg6 : Memref sig .tc .vmem S16 .f32) (harg6 : arg6.IsWhole) (arg7 : Memref sig .tc .vmem S16 .f32) (harg7 : arg7.IsWhole) (arg8 : Memref sig .tc .vmem S16 .f32) (harg8 : arg8.IsWhole) (arg9 : Memref sig .tc .vmem S16 .f32) (harg9 : arg9.IsWhole) (arg10 : Memref sig .tc .vmem S16 .f32) (harg10 : arg10.IsWhole) (arg11 : Memref sig .tc .vmem S16x36 .f32) (harg11 : arg11.IsWhole) (arg12 : Memref sig .tc .vmem S36 .f32) (harg12 : arg12.IsWhole) (arg13 : Memref sig .tc .vmem S1x48x192x64 .f32) (harg13 : arg13.IsWhole)
    (x0 : Vec F S1x48x192x64 .f32) (x1 : Vec F S1x1x192x64 .f32) (x2 : Vec F S1x1x192x64 .f32) (x3 : Vec F S64x16 .f32) (x4 : Vec F S16 .f32) (x5 : Vec F S16 .f32) (x6 : Vec F S16 .f32) (x7 : Vec F S16 .f32) (x8 : Vec F S16 .f32) (x9 : Vec F S16x36 .f32) (x10 : Vec F S36 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (tileOut i x0 x1 x2 x3 x4 x5 x6 x7 x8 x9 x10)) -∗ K ⟨⟩))
      ⊢ wp frame (wpE (defs₀ (F := F)) Variants.none c none) E (cc0_kernel_fn i arg2 harg2 arg3 harg3 arg4 harg4 arg5 harg5 arg6 harg6 arg7 harg7 arg8 harg8 arg9 harg9 arg10 harg10 arg11 harg11 arg12 harg12 arg13 harg13) K := by
  simp only [cc0_kernel_fn_eq_skeleton]; unfold cc0_kernel_fn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover_tile _)

/-! ## The proof data -/

/-- At every point each input window's buffer is left at its block and the output window's at the tile function of
    the input blocks; the input array is held in three shares by the three windows on it, every other array whole;
    nothing is carried between points but the core's other scoped buffers, untouched; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileOut (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) :
    (dats m 0 c).after 11 t = tileOut (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.KernelIdealFrame.lean ====
/-
  The launch of the kernel's one region and the frame: how the input array, read by three windows, is dealt among
  them at the region's entry, the run over the grid from the body's obligation, and what it leaves: the result
  array at the tiles' write-backs, the nine argument arrays unchanged.
-/
import proofs.«121993_j19739669692648_1_alg».proof.Proof.KernelIdealRun
import proofs.«121993_j19739669692648_1_alg».proof.Proof.LibSharedFrame
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry: the input array in three shares -/

theorem share0 (c : Dev nD) : (dats m 0 c).share 0 = fullShare.left := rfl
theorem share1 (c : Dev nD) : (dats m 0 c).share 1 = fullShare.right.left := rfl
theorem share2 (c : Dev nD) : (dats m 0 c).share 2 = fullShare.right.right := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl

/-- The buffers behind the arrays, each whole at the full share, make the proof data's arrays at entry: the input
    array's share is halved, and its right half halved again, for the three windows that read it. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg1, main_arg2, main_arg3, main_arg4, main_arg5, main_arg6, main_arg7, main_arg8, main_v0] (by decide) (by decide), bigSep_W0]
  simp only [View.set_whole, share0, share1, share2, share3, share4, share5, share6, share7, share8, share9, share10, share11]
  refine (show iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_arg7) ↦{fullShare} V m c main_arg7) ∗ (((c.tc : Thread nD τ).loc main_arg8) ↦{fullShare} V m c main_arg8) ∗ (((c.tc : Thread nD τ).loc main_v0) ↦{fullShare} V m c main_v0)) ⊢ _ from ?_)
  iintro ⟨H0, H1, H2, H3, H4, H5, H6, H7, H8, H9⟩
  ihave H0 := (pointsTo_share (PosShare.mem_left_op_right fullShare)).1 $$ H0
  icases H0 with ⟨H0l, H0r⟩
  ihave H0r := (pointsTo_share (PosShare.mem_left_op_right fullShare.right)).1 $$ H0r
  icases H0r with ⟨H0rl, H0rr⟩
  isplitl [H0l]; · iexact H0l
  isplitl [H0rl]; · iexact H0rl
  isplitl [H0rr]; · iexact H0rr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run -/

set_option backward.isDefEq.respectTransparency.types false in
/-- From any memory with zero counters every weakly fair execution terminates; every window's array ends at what the
    write-backs leave there and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hΦ := fun _ _ => rfl)

/-- The run with the result array named and the nine argument arrays unchanged (an input array is never written). -/
theorem run_named : θ_run defs (onTc (τ := τ) (main (F := F))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 11,
      ((h c).1 0).trans (((dats m 0 c).arrAt_in 0 rfl _).trans (A_eq m c 0)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10))⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

end Cert.KernelIdeal.Run

end
-- ==== Proof.Spec.lean ====
/-
  Involution over the extended reals, as ONE function of the argument arrays.

  Per pixel (b, h, w) a 3x3 kernel is generated from the pixel's own 64 channels: a 1x1 convolution to 16
  features, an inference batch norm (subtract the mean, scale by rsqrt (var + eps) and by gamma, add beta), a
  relu, and a second 1x1 convolution to 36 = 9 * 4 weights (patch position p, group g). The result at channel c
  is the sum over the nine patch positions p = 3 * ki + kj of the weight (p, c mod 4) times the zero-padded
  input at (b, h + ki - 1, w + kj - 1, c).

  Two readings of that sum are stated here over one pixel-level function: over the whole arrays (`outAt`, `G`)
  and over one row tile of 48 rows with its two halo rows (`halo`, `blockOut`), and `blockOut_eq` says that a tile
  read off the arrays computes the array-level value.
-/
import Idealize.ShloMosaic.PureOps.Ideal
import Idealize.ShloMosaic.PureOps.Ideal.Laws
import Idealize.ShloMosaic.Lib.ValueIdx

noncomputable section

open scoped BigOperators

namespace Cert.Involution

open Idealize.ShloMosaic Idealize.ShloMosaic.ValueIdx

abbrev SX : Shape := ⟨4, ![8, 192, 192, 64]⟩
abbrev SW1 : Shape := ⟨2, ![64, 16]⟩
abbrev SV16 : Shape := ⟨1, ![16]⟩
abbrev SW2 : Shape := ⟨2, ![16, 36]⟩
abbrev SV36 : Shape := ⟨1, ![36]⟩
abbrev STile : Shape := ⟨4, ![1, 48, 192, 64]⟩
abbrev SRow : Shape := ⟨4, ![1, 1, 192, 64]⟩

/-- The batch norm's epsilon: the f32 word of 1e-3 (the same word in both programs, never evaluated). -/
abbrev eps : EReal := Ideal.ofBits .f32 0x3A83126F#32

/-- Feature `d` of the bottleneck at a pixel whose 64 channels are `px`:
    `relu ((((px · w1[:, d] + b1[d]) - mean[d]) * rsqrt (var[d] + eps)) * gamma[d] + beta[d])`. -/
def hiddenPix (px : Fin 64 → EReal) (w1 : SW1.Idx → EReal) (b1 gamma beta mean var : SV16.Idx → EReal) (d : Fin 16) : EReal :=
  max (((((∑ k : Fin 64, px k * w1 (ix2 k d)) + b1 (ix1 d)) - mean (ix1 d)) * Ideal.rsqrt (var (ix1 d) + eps)) * gamma (ix1 d)
    + beta (ix1 d)) 0

/-- Generated weight `e = 4 * p + g` at that pixel: `hidden · w2[:, e] + b2[e]`. -/
def weightPix (px : Fin 64 → EReal) (w1 : SW1.Idx → EReal) (b1 gamma beta mean var : SV16.Idx → EReal)
    (w2 : SW2.Idx → EReal) (b2 : SV36.Idx → EReal) (e : Fin 36) : EReal :=
  (∑ d : Fin 16, hiddenPix px w1 b1 gamma beta mean var d * w2 (ix2 d e)) + b2 (ix1 e)

/-- The weight index of patch position `p` for channel `c`: `4 * p + c mod 4`. -/
def wIdx (p : Fin 9) (c : Fin 64) : Fin 36 := ⟨4 * p.val + c.val % 4, by have := p.isLt; omega⟩

/-- `x` padded with one ring of zeros around H and W, read at padded coordinates. -/
def padded (x : SX.Idx → EReal) (b : Fin 8) (hh ww : Fin 194) (c : Fin 64) : EReal :=
  if h : 1 ≤ hh.val ∧ hh.val ≤ 192 ∧ 1 ≤ ww.val ∧ ww.val ≤ 192 then
    x (ix4 b ⟨hh.val - 1, by omega⟩ ⟨ww.val - 1, by omega⟩ c)
  else 0

/-- The padded row of patch position `p` above output row `h`, and its column. -/
def pRow (h : Fin 192) (p : Fin 9) : Fin 194 := ⟨h.val + p.val / 3, by have := h.isLt; have := p.isLt; omega⟩
def pCol (w : Fin 192) (p : Fin 9) : Fin 194 := ⟨w.val + p.val % 3, by have := w.isLt; omega⟩

/-- The result at (b, h, w, c). -/
def outAt (x : SX.Idx → EReal) (w1 : SW1.Idx → EReal) (b1 gamma beta mean var : SV16.Idx → EReal)
    (w2 : SW2.Idx → EReal) (b2 : SV36.Idx → EReal) (b : Fin 8) (h w : Fin 192) (c : Fin 64) : EReal :=
  ∑ p : Fin 9, weightPix (fun k => x (ix4 b h w k)) w1 b1 gamma beta mean var w2 b2 (wIdx p c) * padded x b (pRow h p) (pCol w p) c

/-- The whole result array. -/
def G (x : SX.Idx → EReal) (w1 : SW1.Idx → EReal) (b1 gamma beta mean var : SV16.Idx → EReal)
    (w2 : SW2.Idx → EReal) (b2 : SV36.Idx → EReal) : SX.Idx → EReal :=
  fun i => outAt x w1 b1 gamma beta mean var w2 b2 (i 0) (i 1) (i 2) (i 3)

/-! ## One tile of 48 rows with its halo -/

/-- The tile's 50 x 194 halo window: row 0 is the row above the tile (`xt`; zeros when the tile is the first), rows
    1..48 the tile `xc`, row 49 the row below (`xb`; zeros when the tile is the last); columns 0 and 193 are zeros. -/
def halo (first last : Bool) (xc : STile.Idx → EReal) (xt xb : SRow.Idx → EReal) (rr : Fin 50) (ss : Fin 194) (c : Fin 64) : EReal :=
  if hs : 1 ≤ ss.val ∧ ss.val ≤ 192 then
    if h0 : rr.val = 0 then (if first then 0 else xt (ix4 0 0 ⟨ss.val - 1, by omega⟩ c))
    else if h49 : rr.val = 49 then (if last then 0 else xb (ix4 0 0 ⟨ss.val - 1, by omega⟩ c))
    else xc (ix4 0 ⟨rr.val - 1, by have := rr.isLt; omega⟩ ⟨ss.val - 1, by omega⟩ c)
  else 0

def tRow (r : Fin 48) (p : Fin 9) : Fin 50 := ⟨r.val + p.val / 3, by have := r.isLt; have := p.isLt; omega⟩

/-- The tile's result at (r, s, c), from the tile and its two halo rows. -/
def blockOut (first last : Bool) (xc : STile.Idx → EReal) (xt xb : SRow.Idx → EReal) (w1 : SW1.Idx → EReal)
    (b1 gamma beta mean var : SV16.Idx → EReal) (w2 : SW2.Idx → EReal) (b2 : SV36.Idx → EReal)
    (r : Fin 48) (s : Fin 192) (c : Fin 64) : EReal :=
  ∑ p : Fin 9, weightPix (fun k => xc (ix4 0 r s k)) w1 b1 gamma beta mean var w2 b2 (wIdx p c)
    * halo first last xc xt xb (tRow r p) (pCol s p) c

end Cert.Involution

end
-- ==== Proof.BlockValue.lean ====
/-
  The tile a grid point stores, read at an index: the tile-level involution `blockOut` of the blocks it loads.

  The body's value is read one operation at a time. The two products into a zero accumulator are plain sums over the
  contracted axis; the reshapes between [48, 192, ·] and [9216, ·] put pixel (r, s) at flat row 192 r + s; the halo window is
  two three-piece concatenations around the centre block, its outer rows selected to zero on the first and the last tile;
  patch position p's weights, repeated sixteen times along the channels, give channel c the weight of group c mod 4; and the
  nine multiply-adds, accumulated from zero in the order p = 0, …, 8, are the sum over the patch positions.
-/
import proofs.«121993_j19739669692648_1_alg».proof.Proof.BlockFn
import proofs.«121993_j19739669692648_1_alg».proof.Proof.Spec
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-! ### The first product: [9216, 64] by [64, 16] -/

private theorem lhsA_0 (i : S9216x16.Idx) (q : dot_S9216x64_S64x16_S9216x16_1_0_0_1_n_n.contr.Idx) :
    (dot_S9216x64_S64x16_S9216x16_1_0_0_1_n_n.lhsIdx i q 0).val = (i 0).val := by
  unfold DotDims.lhsIdx
  rw [dif_neg (show ¬(0 : Fin S9216x64.rank) ∈ dot_S9216x64_S64x16_S9216x16_1_0_0_1_n_n.lhsBatch by decide), dif_pos (show (0 : Fin S9216x64.rank) ∈ dot_S9216x64_S64x16_S9216x16_1_0_0_1_n_n.lhsNonContracting by decide)]
  rfl
private theorem lhsA_1 (i : S9216x16.Idx) (q : dot_S9216x64_S64x16_S9216x16_1_0_0_1_n_n.contr.Idx) :
    (dot_S9216x64_S64x16_S9216x16_1_0_0_1_n_n.lhsIdx i q 1).val = (q ⟨0, by decide⟩).val :=
  dot_S9216x64_S64x16_S9216x16_1_0_0_1_n_n.lhsIdx_val_of_single rfl i q
private theorem rhsA_0 (i : S9216x16.Idx) (q : dot_S9216x64_S64x16_S9216x16_1_0_0_1_n_n.contr.Idx) :
    (dot_S9216x64_S64x16_S9216x16_1_0_0_1_n_n.rhsIdx i q 0).val = (q ⟨0, by decide⟩).val :=
  dot_S9216x64_S64x16_S9216x16_1_0_0_1_n_n.rhsIdx_val_of_single rfl i q
private theorem rhsA_1 (i : S9216x16.Idx) (q : dot_S9216x64_S64x16_S9216x16_1_0_0_1_n_n.contr.Idx) :
    (dot_S9216x64_S64x16_S9216x16_1_0_0_1_n_n.rhsIdx i q 1).val = (i 1).val := by
  unfold DotDims.rhsIdx
  rw [dif_neg (show ¬(1 : Fin S64x16.rank) ∈ dot_S9216x64_S64x16_S9216x16_1_0_0_1_n_n.rhsBatch by decide), dif_pos (show (1 : Fin S64x16.rank) ∈ dot_S9216x64_S64x16_S9216x16_1_0_0_1_n_n.rhsNonContracting by decide)]
  rfl

/-- Into the zero accumulator the product read at (n, d) is the plain sum over the contracted axis. -/
private theorem matmulA_apply {φ₁ φ₂ : FTy} (A : FVec Ideal S9216x64 φ₁) (B : FVec Ideal S64x16 φ₂) (n : Fin 9216) (d : Fin 16) :
    matmul dot_S9216x64_S64x16_S9216x16_1_0_0_1_n_n none A B (constant (F := Ideal) S9216x16 .f32 0x00000000#32) (ix2 n d)
      = ∑ k : Fin 64, A (ix2 n k) * B (ix2 k d) := by
  simp only [matmul]
  rw [Ideal.matmul_constant_zero_apply, ← Equiv.sum_comp (contrEquiv1 dot_S9216x64_S64x16_S9216x16_1_0_0_1_n_n 64 rfl rfl).symm]
  refine Finset.sum_congr rfl fun k _ => ?_
  have hk := contrEquiv1_symm_val dot_S9216x64_S64x16_S9216x16_1_0_0_1_n_n 64 rfl rfl k
  have el : dot_S9216x64_S64x16_S9216x16_1_0_0_1_n_n.lhsIdx (ix2 n d) ((contrEquiv1 dot_S9216x64_S64x16_S9216x16_1_0_0_1_n_n 64 rfl rfl).symm k) = ix2 n k := funext fun a => Fin.ext (by
    match a with
    | ⟨0, _⟩ => exact lhsA_0 _ _
    | ⟨1, _⟩ => exact (lhsA_1 _ _).trans hk)
  have er : dot_S9216x64_S64x16_S9216x16_1_0_0_1_n_n.rhsIdx (ix2 n d) ((contrEquiv1 dot_S9216x64_S64x16_S9216x16_1_0_0_1_n_n 64 rfl rfl).symm k) = ix2 k d := funext fun a => Fin.ext (by
    match a with
    | ⟨0, _⟩ => exact (rhsA_0 _ _).trans hk
    | ⟨1, _⟩ => exact rhsA_1 _ _)
  rw [el, er]

/-! ### The second product: [9216, 16] by [16, 36] -/

private theorem lhsB_0 (i : S9216x36.Idx) (q : dot_S9216x16_S16x36_S9216x36_1_0_0_1_n_n.contr.Idx) :
    (dot_S9216x16_S16x36_S9216x36_1_0_0_1_n_n.lhsIdx i q 0).val = (i 0).val := by
  unfold DotDims.lhsIdx
  rw [dif_neg (show ¬(0 : Fin S9216x16.rank) ∈ dot_S9216x16_S16x36_S9216x36_1_0_0_1_n_n.lhsBatch by decide), dif_pos (show (0 : Fin S9216x16.rank) ∈ dot_S9216x16_S16x36_S9216x36_1_0_0_1_n_n.lhsNonContracting by decide)]
  rfl
private theorem lhsB_1 (i : S9216x36.Idx) (q : dot_S9216x16_S16x36_S9216x36_1_0_0_1_n_n.contr.Idx) :
    (dot_S9216x16_S16x36_S9216x36_1_0_0_1_n_n.lhsIdx i q 1).val = (q ⟨0, by decide⟩).val :=
  dot_S9216x16_S16x36_S9216x36_1_0_0_1_n_n.lhsIdx_val_of_single rfl i q
private theorem rhsB_0 (i : S9216x36.Idx) (q : dot_S9216x16_S16x36_S9216x36_1_0_0_1_n_n.contr.Idx) :
    (dot_S9216x16_S16x36_S9216x36_1_0_0_1_n_n.rhsIdx i q 0).val = (q ⟨0, by decide⟩).val :=
  dot_S9216x16_S16x36_S9216x36_1_0_0_1_n_n.rhsIdx_val_of_single rfl i q
private theorem rhsB_1 (i : S9216x36.Idx) (q : dot_S9216x16_S16x36_S9216x36_1_0_0_1_n_n.contr.Idx) :
    (dot_S9216x16_S16x36_S9216x36_1_0_0_1_n_n.rhsIdx i q 1).val = (i 1).val := by
  unfold DotDims.rhsIdx
  rw [dif_neg (show ¬(1 : Fin S16x36.rank) ∈ dot_S9216x16_S16x36_S9216x36_1_0_0_1_n_n.rhsBatch by decide), dif_pos (show (1 : Fin S16x36.rank) ∈ dot_S9216x16_S16x36_S9216x36_1_0_0_1_n_n.rhsNonContracting by decide)]
  rfl

/-- Into the zero accumulator the product read at (n, d) is the plain sum over the contracted axis. -/
private theorem matmulB_apply {φ₁ φ₂ : FTy} (A : FVec Ideal S9216x16 φ₁) (B : FVec Ideal S16x36 φ₂) (n : Fin 9216) (d : Fin 36) :
    matmul dot_S9216x16_S16x36_S9216x36_1_0_0_1_n_n none A B (constant (F := Ideal) S9216x36 .f32 0x00000000#32) (ix2 n d)
      = ∑ k : Fin 16, A (ix2 n k) * B (ix2 k d) := by
  simp only [matmul]
  rw [Ideal.matmul_constant_zero_apply, ← Equiv.sum_comp (contrEquiv1 dot_S9216x16_S16x36_S9216x36_1_0_0_1_n_n 16 rfl rfl).symm]
  refine Finset.sum_congr rfl fun k _ => ?_
  have hk := contrEquiv1_symm_val dot_S9216x16_S16x36_S9216x36_1_0_0_1_n_n 16 rfl rfl k
  have el : dot_S9216x16_S16x36_S9216x36_1_0_0_1_n_n.lhsIdx (ix2 n d) ((contrEquiv1 dot_S9216x16_S16x36_S9216x36_1_0_0_1_n_n 16 rfl rfl).symm k) = ix2 n k := funext fun a => Fin.ext (by
    match a with
    | ⟨0, _⟩ => exact lhsB_0 _ _
    | ⟨1, _⟩ => exact (lhsB_1 _ _).trans hk)
  have er : dot_S9216x16_S16x36_S9216x36_1_0_0_1_n_n.rhsIdx (ix2 n d) ((contrEquiv1 dot_S9216x16_S16x36_S9216x36_1_0_0_1_n_n 16 rfl rfl).symm k) = ix2 k d := funext fun a => Fin.ext (by
    match a with
    | ⟨0, _⟩ => exact (rhsB_0 _ _).trans hk
    | ⟨1, _⟩ => exact rhsB_1 _ _)
  rw [el, er]

/-! ### Reshapes, row broadcasts and slices read at coordinates -/

/-- The tile flattened to one pixel per row: flat row 192 r + s is pixel (r, s). -/
private theorem flat_apply (x : FVec Ideal S48x192x64 .f32) (r : Fin 48) (s : Fin 192) (k : Fin 64) (n : Fin 9216)
    (hn : n.val = 192 * r.val + s.val) :
    shapeCast S9216x64 x shapeCasts_S48x192x64_S9216x64 (ix2 n k) = x (ix3 r s k) :=
  shapeCast_apply x _ _ _ (by
    rw [Shape.rowMajor_val_three, Shape.rowMajor_val_two]
    show (r.val * 192 + s.val) * 64 + k.val = n.val * 64 + k.val
    omega)

/-- The generated weights unflattened: entry (r, s, p, g) is column 4 p + g of flat row 192 r + s. -/
private theorem unflat_apply (y : FVec Ideal S9216x36 .f32) (r : Fin 48) (s : Fin 192) (p : Fin 9) (g : Fin 4) (n : Fin 9216) (e : Fin 36)
    (hn : n.val = 192 * r.val + s.val) (he : e.val = 4 * p.val + g.val) :
    shapeCast S48x192x9x4 y shapeCasts_S9216x36_S48x192x9x4 (ix4 r s p g) = y (ix2 n e) :=
  shapeCast_apply y _ _ _ (by
    rw [Shape.rowMajor_val_two, Shape.rowMajor_val_four]
    show n.val * 36 + e.val = ((r.val * 192 + s.val) * 9 + p.val) * 4 + g.val
    omega)

/-- A vector of 16 laid as one row and repeated down 9216 rows reads its entry at the column. -/
private theorem row16_apply (v : FVec Ideal S16 .f32) (n : Fin 9216) (d : Fin 16) :
    broadcastTo S9216x16 (shapeCast S1x16 v shapeCasts_S16_S1x16) broadcasts_S1x16_S9216x16 (ix2 n d) = v (ix1 d) := by
  rw [broadcastTo_1b_ab_apply, shapeCast_a_1a_apply]

/-- The same for a vector of 36. -/
private theorem row36_apply (v : FVec Ideal S36 .f32) (n : Fin 9216) (e : Fin 36) :
    broadcastTo S9216x36 (shapeCast S1x36 v shapeCasts_S36_S1x36) broadcasts_S1x36_S9216x36 (ix2 n e) = v (ix1 e) := by
  rw [broadcastTo_1b_ab_apply, shapeCast_a_1a_apply]

/-- A 48 x 192 window of the halo window at offset (a, b) reads it at (a + r, b + s). -/
private theorem patch_apply (v : FVec Ideal S50x194x64 .f32) (a b : Nat) (h : S50x194x64.Slices ![a, b, 0] S48x192x64)
    (r : Fin 48) (s : Fin 192) (c : Fin 64) (rr : Fin 50) (ss : Fin 194) (hr : rr.val = a + r.val) (hs : ss.val = b + s.val) :
    extractStridedSlice S48x192x64 ![a, b, 0] v h (ix3 r s c) = v (ix3 rr ss c) :=
  extractStridedSlice_apply _ _ _ _ _ (fun ax => by
    match ax with
    | ⟨0, _⟩ => exact hr
    | ⟨1, _⟩ => exact hs
    | ⟨2, _⟩ => exact (Nat.zero_add _).symm)

/-- Patch position o of the generated weights, as a 48 x 192 x 4 array: entry (r, s, g) is weight (r, s, o, g). -/
private theorem wpiece_apply (w : FVec Ideal S48x192x9x4 .f32) (o : Nat) (h : S48x192x9x4.Slices ![0, 0, o, 0] S48x192x1x4)
    (p : Fin 9) (hp : p.val = o) (r : Fin 48) (s : Fin 192) (g : Fin 4) :
    shapeCast S48x192x4 (extractStridedSlice S48x192x1x4 ![0, 0, o, 0] w h) shapeCasts_S48x192x1x4_S48x192x4 (ix3 r s g)
      = w (ix4 r s p g) := by
  refine (shapeCast_apply _ _ (ix3 r s g) (ix4 r s (0 : Fin 1) g) (by
    rw [Shape.rowMajor_val_four, Shape.rowMajor_val_three]
    show ((r.val * 192 + s.val) * 1 + 0) * 4 + g.val = (r.val * 192 + s.val) * 4 + g.val
    omega)).trans ?_
  exact slice4_axis2_apply o w h r s (0 : Fin 1) g p (by rw [hp]; rfl)

/-- Sixteen copies of a 48 x 192 x 4 array laid side by side on the channel axis: channel c reads group c mod 4. -/
private theorem tile16_apply (x : FVec Ideal S48x192x4 .f32) (r : Fin 48) (s : Fin 192) (c : Fin 64) :
    concatenate S48x192x64 2 [⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩, ⟨S48x192x4, x⟩]
        concatenates_S48x192x4_S48x192x4_S48x192x4_S48x192x4_S48x192x4_S48x192x4_S48x192x4_S48x192x4_S48x192x4_S48x192x4_S48x192x4_S48x192x4_S48x192x4_S48x192x4_S48x192x4_S48x192x4_S48x192x64_d2 (ix3 r s c)
      = x (ix3 r s ⟨c.val % 4, Nat.mod_lt _ (by decide)⟩) :=
  concatenate_replicate_apply (t := S48x192x64) (s₁ := S48x192x4) (2 : Fin 3) 16 x
    (show Shape.Concatenates ((List.replicate 16 (⟨S48x192x4, x⟩ : (s : Shape) × (s.Idx → Ideal .f32))).map (·.1)) S48x192x64 2 from
      concatenates_S48x192x4_S48x192x4_S48x192x4_S48x192x4_S48x192x4_S48x192x4_S48x192x4_S48x192x4_S48x192x4_S48x192x4_S48x192x4_S48x192x4_S48x192x4_S48x192x4_S48x192x4_S48x192x4_S48x192x64_d2)
    rfl (ix3 r s c) (ix3 r s ⟨c.val % 4, Nat.mod_lt _ (by decide)⟩) rfl
    (fun b hb => by
      match b with
      | ⟨0, _⟩ => rfl
      | ⟨1, _⟩ => rfl
      | ⟨2, _⟩ => exact absurd rfl hb)

/-! ### The halo window -/

/-- A zero column, 192 columns and a zero column laid side by side: columns 1 to 192 read the middle piece one column to
    the left, columns 0 and 193 an outer piece. -/
private theorem cols_apply (z : FVec Ideal S50x1x64 .f32) (m : FVec Ideal S50x192x64 .f32) (rr : Fin 50) (ss : Fin 194) (c : Fin 64) :
    concatenate S50x194x64 1 [⟨S50x1x64, z⟩, ⟨S50x192x64, m⟩, ⟨S50x1x64, z⟩] concatenates_S50x1x64_S50x192x64_S50x1x64_S50x194x64_d1 (ix3 rr ss c)
      = if hs : 1 ≤ ss.val ∧ ss.val ≤ 192 then m (ix3 rr ⟨ss.val - 1, by omega⟩ c) else z (ix3 rr 0 c) := by
  have hss := ss.isLt
  by_cases hs : 1 ≤ ss.val ∧ ss.val ≤ 192
  · rw [dif_pos hs]
    exact concatenate_apply_piece (1 : Fin 3) [⟨S50x1x64, z⟩, ⟨S50x192x64, m⟩, ⟨S50x1x64, z⟩] _ (ix3 rr ss c) 1 (show (1 : Nat) < 3 by omega) S50x192x64 m rfl rfl 1 rfl
      (ix3 rr ⟨ss.val - 1, by omega⟩ c) (fun b hb => by
        match b with
        | ⟨0, _⟩ => rfl
        | ⟨1, _⟩ => exact absurd rfl hb
        | ⟨2, _⟩ => rfl)
      (by show 1 + (ss.val - 1) = ss.val; omega)
  · rw [dif_neg hs]
    by_cases h0 : ss.val = 0
    · exact concatenate_apply_piece (1 : Fin 3) [⟨S50x1x64, z⟩, ⟨S50x192x64, m⟩, ⟨S50x1x64, z⟩] _ (ix3 rr ss c) 0 (show (0 : Nat) < 3 by omega) S50x1x64 z rfl rfl 0 rfl
        (ix3 rr 0 c) (fun b hb => by
        match b with
        | ⟨0, _⟩ => rfl
        | ⟨1, _⟩ => exact absurd rfl hb
        | ⟨2, _⟩ => rfl)
        (by show 0 + 0 = ss.val; omega)
    · exact concatenate_apply_piece (1 : Fin 3) [⟨S50x1x64, z⟩, ⟨S50x192x64, m⟩, ⟨S50x1x64, z⟩] _ (ix3 rr ss c) 2 (show (2 : Nat) < 3 by omega) S50x1x64 z rfl rfl 193 rfl
        (ix3 rr 0 c) (fun b hb => by
        match b with
        | ⟨0, _⟩ => rfl
        | ⟨1, _⟩ => exact absurd rfl hb
        | ⟨2, _⟩ => rfl)
        (by show 193 + 0 = ss.val; omega)

/-- A row, 48 rows and a row stacked: row 0 reads the top piece, rows 1 to 48 the middle piece one row up, row 49 the
    bottom piece. -/
private theorem rows_apply (t : FVec Ideal S1x192x64 .f32) (m : FVec Ideal S48x192x64 .f32) (b : FVec Ideal S1x192x64 .f32)
    (rr : Fin 50) (s : Fin 192) (c : Fin 64) :
    concatenate S50x192x64 0 [⟨S1x192x64, t⟩, ⟨S48x192x64, m⟩, ⟨S1x192x64, b⟩] concatenates_S1x192x64_S48x192x64_S1x192x64_S50x192x64_d0 (ix3 rr s c)
      = if h0 : rr.val = 0 then t (ix3 0 s c)
        else if h49 : rr.val = 49 then b (ix3 0 s c)
        else m (ix3 ⟨rr.val - 1, by have := rr.isLt; omega⟩ s c) := by
  have hrr := rr.isLt
  by_cases h0 : rr.val = 0
  · rw [dif_pos h0]
    exact concatenate_apply_piece (0 : Fin 3) [⟨S1x192x64, t⟩, ⟨S48x192x64, m⟩, ⟨S1x192x64, b⟩] _ (ix3 rr s c) 0 (show (0 : Nat) < 3 by omega) S1x192x64 t rfl rfl 0 rfl
      (ix3 0 s c) (fun b hb => by
        match b with
        | ⟨0, _⟩ => exact absurd rfl hb
        | ⟨1, _⟩ => rfl
        | ⟨2, _⟩ => rfl)
      (by show 0 + 0 = rr.val; omega)
  · rw [dif_neg h0]
    by_cases h49 : rr.val = 49
    · rw [dif_pos h49]
      exact concatenate_apply_piece (0 : Fin 3) [⟨S1x192x64, t⟩, ⟨S48x192x64, m⟩, ⟨S1x192x64, b⟩] _ (ix3 rr s c) 2 (show (2 : Nat) < 3 by omega) S1x192x64 b rfl rfl 49 rfl
        (ix3 0 s c) (fun b hb => by
        match b with
        | ⟨0, _⟩ => exact absurd rfl hb
        | ⟨1, _⟩ => rfl
        | ⟨2, _⟩ => rfl)
        (by show 49 + 0 = rr.val; omega)
    · rw [dif_neg h49]
      exact concatenate_apply_piece (0 : Fin 3) [⟨S1x192x64, t⟩, ⟨S48x192x64, m⟩, ⟨S1x192x64, b⟩] _ (ix3 rr s c) 1 (show (1 : Nat) < 3 by omega) S48x192x64 m rfl rfl 1 rfl
        (ix3 ⟨rr.val - 1, by omega⟩ s c) (fun b hb => by
        match b with
        | ⟨0, _⟩ => exact absurd rfl hb
        | ⟨1, _⟩ => rfl
        | ⟨2, _⟩ => rfl)
        (by show 1 + (rr.val - 1) = rr.val; omega)

/-- The select on "the tile's number is 0", the number below 4. -/
private theorem sel_first {α : Type} (n : Nat) (hn : n < 4) (A B : α) :
    Scalar.select (Scalar.cmpi .eq (BitVec.ofNat 32 n) 0#32) A B = if n = 0 then A else B := by
  interval_cases n <;> rfl

/-- The select on "the tile's number is 3", the number below 4. -/
private theorem sel_last {α : Type} (n : Nat) (hn : n < 4) (A B : α) :
    Scalar.select (Scalar.cmpi .eq (BitVec.ofNat 32 n) 3#32) A B = if n = 3 then A else B := by
  interval_cases n <;> rfl

/-- The kernel's halo window read at (rr, ss, c) is the specification's. -/
private theorem halo_apply (i : grid0.Coords) (xt xb : Vec Ideal S1x1x192x64 .f32) (xc : Vec Ideal S1x48x192x64 .f32)
    (rr : Fin 50) (ss : Fin 194) (c : Fin 64) :
    k0_pay3 (F := Ideal) i xt xb xc (ix3 rr ss c)
      = Cert.Involution.halo (decide ((i 1).val = 0)) (decide ((i 1).val = 3)) xc xt xb rr ss c := by
  have hi : (i 1).val < 4 := (i 1).isLt
  have hrr := rr.isLt
  unfold k0_pay3 k0_pay2 Cert.Involution.halo
  refine (cols_apply _ _ rr ss c).trans ?_
  by_cases hs : 1 ≤ ss.val ∧ ss.val ≤ 192
  · rw [dif_pos hs, dif_pos hs]
    refine (rows_apply _ _ _ rr _ c).trans ?_
    by_cases h0 : rr.val = 0
    · rw [dif_pos h0, dif_pos h0, sel_first _ hi]
      by_cases hf : (i 1).val = 0
      · rw [if_pos hf, if_pos (decide_eq_true hf), broadcast_apply]
        exact Ideal.ofBits_zero_f32
      · rw [if_neg hf, if_neg (by simpa using hf)]
        exact shapeCast_1abc_abc_apply xt _ (0 : Fin 1) _ c
    · rw [dif_neg h0, dif_neg h0]
      by_cases h49 : rr.val = 49
      · rw [dif_pos h49, dif_pos h49, sel_last _ hi]
        by_cases hl : (i 1).val = 3
        · rw [if_pos hl, if_pos (decide_eq_true hl), broadcast_apply]
          exact Ideal.ofBits_zero_f32
        · rw [if_neg hl, if_neg (by simpa using hl)]
          exact shapeCast_1abc_abc_apply xb _ (0 : Fin 1) _ c
      · rw [dif_neg h49, dif_neg h49]
        exact shapeCast_1abc_abc_apply xc _ _ _ c
  · rw [dif_neg hs, dif_neg hs, broadcast_apply]
    exact Ideal.ofBits_zero_f32

/-! ### The payloads read at coordinates -/

/-- The bottleneck before the batch norm's scale, at flat row 192 r + s and feature d. -/
private theorem pay4_apply (xc : Vec Ideal S1x48x192x64 .f32) (w1 : Vec Ideal S64x16 .f32) (b1 mean : Vec Ideal S16 .f32)
    (r : Fin 48) (s : Fin 192) (n : Fin 9216) (hn : n.val = 192 * r.val + s.val) (d : Fin 16) :
    k0_pay4 (F := Ideal) xc w1 b1 mean (ix2 n d)
      = ((∑ k : Fin 64, xc (ix4 0 r s k) * w1 (ix2 k d)) + b1 (ix1 d)) - mean (ix1 d) := by
  unfold k0_pay4 k0_pay2
  rw [subf_apply, addf_apply, matmulA_apply, row16_apply, row16_apply]
  refine congrArg (fun t => t + b1 (ix1 d) - mean (ix1 d)) (Finset.sum_congr rfl fun k _ => ?_)
  rw [truncf_apply, truncf_apply, flat_apply _ r s k n hn]
  exact congrArg (· * w1 (ix2 k d)) (shapeCast_1abc_abc_apply xc _ r s k)

/-- The batch norm's scale, the same down every row. -/
private theorem pay5_apply (var : Vec Ideal S16 .f32) (n : Fin 9216) (d : Fin 16) :
    k0_pay5 (F := Ideal) var (ix2 n d) = Ideal.rsqrt (var (ix1 d) + Cert.Involution.eps) := by
  unfold k0_pay5
  rw [row16_apply]
  rfl

/-- The generated weights at (r, s, p, g), over the two bottleneck factors at flat row 192 r + s. -/
private theorem pay6_apply (u v : FVec Ideal S9216x16 .f32) (gamma beta : Vec Ideal S16 .f32) (w2 : Vec Ideal S16x36 .f32)
    (b2 : Vec Ideal S36 .f32) (r : Fin 48) (s : Fin 192) (p : Fin 9) (g : Fin 4) (n : Fin 9216) (e : Fin 36)
    (hn : n.val = 192 * r.val + s.val) (he : e.val = 4 * p.val + g.val) :
    k0_pay6 (F := Ideal) u v gamma beta w2 b2 (ix4 r s p g)
      = (∑ d : Fin 16, max ((u (ix2 n d) * v (ix2 n d)) * gamma (ix1 d) + beta (ix1 d)) 0 * w2 (ix2 d e)) + b2 (ix1 e) := by
  unfold k0_pay6
  rw [unflat_apply _ r s p g n e hn he, addf_apply, matmulB_apply, row36_apply]
  refine congrArg (· + b2 (ix1 e)) (Finset.sum_congr rfl fun d _ => ?_)
  rw [truncf_apply, truncf_apply, maximumf_apply, addf_apply, mulf_apply, mulf_apply, row16_apply, row16_apply, broadcast_apply]
  exact congrArg (fun z => max ((u (ix2 n d) * v (ix2 n d)) * gamma (ix1 d) + beta (ix1 d)) z * w2 (ix2 d e)) Ideal.ofBits_zero_f32

/-- The generated weights are the specification's: weight 4 p + g of pixel (r, s). -/
private theorem weights_apply (xc : Vec Ideal S1x48x192x64 .f32) (w1 : Vec Ideal S64x16 .f32) (b1 gamma beta mean var : Vec Ideal S16 .f32)
    (w2 : Vec Ideal S16x36 .f32) (b2 : Vec Ideal S36 .f32) (r : Fin 48) (s : Fin 192) (p : Fin 9) (c : Fin 64) :
    k0_pay6 (F := Ideal) (k0_pay4 xc w1 b1 mean) (k0_pay5 var) gamma beta w2 b2 (ix4 r s p ⟨c.val % 4, Nat.mod_lt _ (by decide)⟩)
      = Cert.Involution.weightPix (fun k => xc (ix4 0 r s k)) w1 b1 gamma beta mean var w2 b2 (Cert.Involution.wIdx p c) := by
  have hn : (⟨192 * r.val + s.val, by have := r.isLt; have := s.isLt; omega⟩ : Fin 9216).val = 192 * r.val + s.val := rfl
  rw [pay6_apply _ _ gamma beta w2 b2 r s p _ _ (Cert.Involution.wIdx p c) hn rfl]
  unfold Cert.Involution.weightPix Cert.Involution.hiddenPix
  refine congrArg (· + b2 (ix1 (Cert.Involution.wIdx p c))) (Finset.sum_congr rfl fun d _ => ?_)
  rw [pay4_apply xc w1 b1 mean r s _ hn d, pay5_apply]

/-- Patch position p's weights repeated over the channel groups, times any 48 x 192 x 64 array P, at (r, s, c): the weight
    (r, s, p, c mod 4) times P there. -/
private theorem wterm_apply (P : FVec Ideal S48x192x64 .f32) (W : FVec Ideal S48x192x9x4 .f32) (o : Nat)
    (hW : S48x192x9x4.Slices ![0, 0, o, 0] S48x192x1x4) (p : Fin 9) (hp : p.val = o) (r : Fin 48) (s : Fin 192) (c : Fin 64) :
    mulf P
        (concatenate S48x192x64 2
          [⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩]
          concatenates_S48x192x4_S48x192x4_S48x192x4_S48x192x4_S48x192x4_S48x192x4_S48x192x4_S48x192x4_S48x192x4_S48x192x4_S48x192x4_S48x192x4_S48x192x4_S48x192x4_S48x192x4_S48x192x4_S48x192x64_d2) (ix3 r s c)
      = W (ix4 r s p ⟨c.val % 4, Nat.mod_lt _ (by decide)⟩) * P (ix3 r s c) := by
  rw [mulf_apply, tile16_apply, wpiece_apply W o hW p hp]
  exact mul_comm _ _

/-- Patch position p's multiply-add term at (r, s, c): the weight (r, s, p, c mod 4) times the halo window at
    (r + p / 3, s + p mod 3, c). -/
private def term (H : FVec Ideal S50x194x64 .f32) (W : FVec Ideal S48x192x9x4 .f32) (r : Fin 48) (s : Fin 192) (c : Fin 64)
    (p : Fin 9) : EReal :=
  W (ix4 r s p ⟨c.val % 4, Nat.mod_lt _ (by decide)⟩) * H (ix3 (Cert.Involution.tRow r p) (Cert.Involution.pCol s p) c)

/-- The halo window's 48 x 192 window at offset (p / 3, p mod 3) times patch position p's weights repeated over the channel
    groups is patch position p's term. -/
private theorem term_apply (H : FVec Ideal S50x194x64 .f32) (W : FVec Ideal S48x192x9x4 .f32) (a b o : Nat)
    (hH : S50x194x64.Slices ![a, b, 0] S48x192x64) (hW : S48x192x9x4.Slices ![0, 0, o, 0] S48x192x1x4)
    (p : Fin 9) (hp : p.val = o) (ha : p.val / 3 = a) (hb : p.val % 3 = b) (r : Fin 48) (s : Fin 192) (c : Fin 64) :
    mulf (extractStridedSlice S48x192x64 ![a, b, 0] H hH)
        (concatenate S48x192x64 2
          [⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩, ⟨S48x192x4, shapeCast S48x192x4 (extractStridedSlice S48x192x1x4 ![0, 0, o, 0] W hW) shapeCasts_S48x192x1x4_S48x192x4⟩]
          concatenates_S48x192x4_S48x192x4_S48x192x4_S48x192x4_S48x192x4_S48x192x4_S48x192x4_S48x192x4_S48x192x4_S48x192x4_S48x192x4_S48x192x4_S48x192x4_S48x192x4_S48x192x4_S48x192x4_S48x192x64_d2) (ix3 r s c)
      = term H W r s c p := by
  rw [wterm_apply _ W o hW p hp,
    patch_apply H a b hH r s c (Cert.Involution.tRow r p) (Cert.Involution.pCol s p)
      (by show r.val + p.val / 3 = a + r.val; omega) (by show s.val + p.val % 3 = b + s.val; omega)]
  rfl

/-- The first five terms accumulated from zero. -/
private theorem pay7_apply (H : FVec Ideal S50x194x64 .f32) (u v : FVec Ideal S9216x16 .f32) (gamma beta : Vec Ideal S16 .f32)
    (w2 : Vec Ideal S16x36 .f32) (b2 : Vec Ideal S36 .f32) (r : Fin 48) (s : Fin 192) (c : Fin 64) :
    k0_pay7 (F := Ideal) H u v gamma beta w2 b2 (ix3 r s c)
      = 0 + term H (k0_pay6 u v gamma beta w2 b2) r s c 0 + term H (k0_pay6 u v gamma beta w2 b2) r s c 1
          + term H (k0_pay6 u v gamma beta w2 b2) r s c 2 + term H (k0_pay6 u v gamma beta w2 b2) r s c 3
          + term H (k0_pay6 u v gamma beta w2 b2) r s c 4 := by
  unfold k0_pay7
  refine congrArg₂ (· + ·) (congrArg₂ (· + ·) (congrArg₂ (· + ·) (congrArg₂ (· + ·) (congrArg₂ (· + ·) ?_
    (term_apply H _ 0 0 0 _ _ 0 rfl rfl rfl r s c)) (term_apply H _ 0 1 1 _ _ 1 rfl rfl rfl r s c)) (term_apply H _ 0 2 2 _ _ 2 rfl rfl rfl r s c)) (term_apply H _ 1 0 3 _ _ 3 rfl rfl rfl r s c)) (term_apply H _ 1 1 4 _ _ 4 rfl rfl rfl r s c)
  exact Ideal.ofBits_zero_f32

/-- The sixth term's window of the halo window. -/
private theorem pay8_apply (H : FVec Ideal S50x194x64 .f32) (r : Fin 48) (s : Fin 192) (c : Fin 64) :
    k0_pay8 (F := Ideal) H (ix3 r s c) = H (ix3 (Cert.Involution.tRow r 5) (Cert.Involution.pCol s 5) c) := by
  unfold k0_pay8
  exact patch_apply H 1 2 _ r s c _ _ (by show r.val + 5 / 3 = 1 + r.val; omega) (by show s.val + 5 % 3 = 2 + s.val; omega)

/-- The stored tile at (0, r, s, c): the accumulated five terms, the sixth over its window P, and the last three. -/
private theorem pay1_apply (H : FVec Ideal S50x194x64 .f32) (W : FVec Ideal S48x192x9x4 .f32) (acc P : FVec Ideal S48x192x64 .f32)
    (r : Fin 48) (s : Fin 192) (c : Fin 64) :
    k0_pay1 (F := Ideal) H W acc P (ix4 0 r s c)
      = acc (ix3 r s c) + W (ix4 r s 5 ⟨c.val % 4, Nat.mod_lt _ (by decide)⟩) * P (ix3 r s c)
          + term H W r s c 6 + term H W r s c 7 + term H W r s c 8 := by
  unfold k0_pay1
  refine (shapeCast_abc_1abc_apply _ _ (0 : Fin 1) r s c).trans ?_
  exact congrArg₂ (· + ·) (congrArg₂ (· + ·) (congrArg₂ (· + ·) (congrArg₂ (· + ·) rfl
    (wterm_apply P W 5 _ 5 rfl r s c)) (term_apply H W 2 0 6 _ _ 6 rfl rfl rfl r s c)) (term_apply H W 2 1 7 _ _ 7 rfl rfl rfl r s c)) (term_apply H W 2 2 8 _ _ 8 rfl rfl rfl r s c)

/-- A sum over the nine patch positions written out. -/
private theorem sum9 (f : Fin 9 → EReal) : ∑ p, f p = f 0 + f 1 + f 2 + f 3 + f 4 + f 5 + f 6 + f 7 + f 8 := by
  rw [Fin.sum_univ_castSucc, Fin.sum_univ_eight]
  rfl

/-- At `Ideal`, element (0, r, s, c) of the tile stored at grid point `i` is the tile-level involution of the loaded
    blocks, the first tile's top halo row and the last tile's bottom halo row masked to zero. -/
theorem outBlock_apply (i : grid0.Coords) (xc : Vec Ideal S1x48x192x64 .f32) (xt xb : Vec Ideal S1x1x192x64 .f32)
    (w1 : Vec Ideal S64x16 .f32) (b1 gamma beta mean var : Vec Ideal S16 .f32) (w2 : Vec Ideal S16x36 .f32) (b2 : Vec Ideal S36 .f32)
    (r : Fin 48) (s : Fin 192) (c : Fin 64) :
    outBlock (F := Ideal) i xc xt xb w1 b1 gamma beta mean var w2 b2 (ix4 0 r s c)
      = Cert.Involution.blockOut (decide ((i 1).val = 0)) (decide ((i 1).val = 3)) xc xt xb w1 b1 gamma beta mean var w2 b2 r s c := by
  unfold outBlock Cert.Involution.blockOut
  rw [pay1_apply, pay7_apply, pay8_apply, sum9, zero_add]
  unfold term
  rw [weights_apply xc w1 b1 gamma beta mean var w2 b2 r s 0 c,
    weights_apply xc w1 b1 gamma beta mean var w2 b2 r s 1 c,
    weights_apply xc w1 b1 gamma beta mean var w2 b2 r s 2 c,
    weights_apply xc w1 b1 gamma beta mean var w2 b2 r s 3 c,
    weights_apply xc w1 b1 gamma beta mean var w2 b2 r s 4 c,
    weights_apply xc w1 b1 gamma beta mean var w2 b2 r s 5 c,
    weights_apply xc w1 b1 gamma beta mean var w2 b2 r s 6 c,
    weights_apply xc w1 b1 gamma beta mean var w2 b2 r s 7 c,
    weights_apply xc w1 b1 gamma beta mean var w2 b2 r s 8 c,
    halo_apply i xt xb xc (Cert.Involution.tRow r 0) (Cert.Involution.pCol s 0) c,
    halo_apply i xt xb xc (Cert.Involution.tRow r 1) (Cert.Involution.pCol s 1) c,
    halo_apply i xt xb xc (Cert.Involution.tRow r 2) (Cert.Involution.pCol s 2) c,
    halo_apply i xt xb xc (Cert.Involution.tRow r 3) (Cert.Involution.pCol s 3) c,
    halo_apply i xt xb xc (Cert.Involution.tRow r 4) (Cert.Involution.pCol s 4) c,
    halo_apply i xt xb xc (Cert.Involution.tRow r 5) (Cert.Involution.pCol s 5) c,
    halo_apply i xt xb xc (Cert.Involution.tRow r 6) (Cert.Involution.pCol s 6) c,
    halo_apply i xt xb xc (Cert.Involution.tRow r 7) (Cert.Involution.pCol s 7) c,
    halo_apply i xt xb xc (Cert.Involution.tRow r 8) (Cert.Involution.pCol s 8) c]

end Cert.KernelIdeal.Tile

end
-- ==== Proof.TileValue.lean ====
/-
  A row tile read off the arrays computes the array-level involution: the tile's halo window is the zero-padded
  input read at the tile's rows, so the tile-level sum over the nine patch positions is the array-level one.
-/
import proofs.«121993_j19739669692648_1_alg».proof.Proof.Spec

noncomputable section

open scoped BigOperators

namespace Cert.Involution

open Idealize.ShloMosaic Idealize.ShloMosaic.ValueIdx

/-- Two reads of `x` at rows with the same value agree. -/
private theorem x_row_congr (x : SX.Idx → EReal) (b : Fin 8) {h h' : Fin 192} (e : h.val = h'.val) (w : Fin 192) (c : Fin 64) :
    x (ix4 b h w c) = x (ix4 b h' w c) := by rw [Fin.ext e]

/-- The tile's halo window is the zero-padded image read at the tile's rows: window row `rr` of tile `i` is padded row
    `48 i + rr`. Window row 0 of the first tile is padded row 0 and window row 49 of the last tile is padded row 193,
    both zero; every other window row is image row `48 i + rr - 1`, held by the centre block or by a halo row. -/
private theorem halo_eq_padded (x : SX.Idx → EReal) (b : Fin 8) (i : Fin 4)
    (xc : STile.Idx → EReal) (xt xb : SRow.Idx → EReal)
    (hc : ∀ (r : Fin 48) (s : Fin 192) (k : Fin 64), xc (ix4 0 r s k) = x (ix4 b ⟨48 * i.val + r.val, by have := i.isLt; have := r.isLt; omega⟩ s k))
    (ht : ∀ (hi : i.val ≠ 0) (s : Fin 192) (k : Fin 64), xt (ix4 0 0 s k) = x (ix4 b ⟨48 * i.val - 1, by have := i.isLt; omega⟩ s k))
    (hb : ∀ (hi : i.val ≠ 3) (s : Fin 192) (k : Fin 64), xb (ix4 0 0 s k) = x (ix4 b ⟨48 * i.val + 48, by have := i.isLt; omega⟩ s k))
    (rr : Fin 50) (ss hh : Fin 194) (c : Fin 64) (hrow : hh.val = 48 * i.val + rr.val) :
    halo (decide (i.val = 0)) (decide (i.val = 3)) xc xt xb rr ss c = padded x b hh ss c := by
  have hi := i.isLt
  have hrr := rr.isLt
  unfold halo padded
  by_cases hcol : 1 ≤ ss.val ∧ ss.val ≤ 192
  · rw [dif_pos hcol]
    by_cases h0 : rr.val = 0
    · rw [dif_pos h0]
      by_cases hi0 : i.val = 0
      · -- window row 0 of the first tile: padded row 0
        have hn : ¬(1 ≤ hh.val ∧ hh.val ≤ 192 ∧ 1 ≤ ss.val ∧ ss.val ≤ 192) := by omega
        rw [dif_neg hn, if_pos (decide_eq_true hi0)]
      · -- window row 0 of a later tile: image row 48 i - 1, the upper halo row
        have hy : 1 ≤ hh.val ∧ hh.val ≤ 192 ∧ 1 ≤ ss.val ∧ ss.val ≤ 192 := by omega
        rw [dif_pos hy, if_neg (fun h => hi0 (of_decide_eq_true h)), ht hi0]
        exact x_row_congr x b (by dsimp only; omega) _ c
    · rw [dif_neg h0]
      by_cases h49 : rr.val = 49
      · rw [dif_pos h49]
        by_cases hi3 : i.val = 3
        · -- window row 49 of the last tile: padded row 193
          have hn : ¬(1 ≤ hh.val ∧ hh.val ≤ 192 ∧ 1 ≤ ss.val ∧ ss.val ≤ 192) := by omega
          rw [dif_neg hn, if_pos (decide_eq_true hi3)]
        · -- window row 49 of an earlier tile: image row 48 i + 48, the lower halo row
          have hy : 1 ≤ hh.val ∧ hh.val ≤ 192 ∧ 1 ≤ ss.val ∧ ss.val ≤ 192 := by omega
          rw [dif_pos hy, if_neg (fun h => hi3 (of_decide_eq_true h)), hb hi3]
          exact x_row_congr x b (by dsimp only; omega) _ c
      · -- an interior window row: image row 48 i + rr - 1, in the centre block
        have hy : 1 ≤ hh.val ∧ hh.val ≤ 192 ∧ 1 ≤ ss.val ∧ ss.val ≤ 192 := by omega
        rw [dif_neg h49, dif_pos hy, hc]
        exact x_row_congr x b (by dsimp only; omega) _ c
  · -- a window column outside 1..192 is a padded column outside 1..192
    have hn : ¬(1 ≤ hh.val ∧ hh.val ≤ 192 ∧ 1 ≤ ss.val ∧ ss.val ≤ 192) := by omega
    rw [dif_neg hcol, dif_neg hn]

/-- A tile read off the arrays computes the array-level value: tile `i` (rows 48 i .. 48 i + 47) of image `b`, its halo
    rows the rows 48 i - 1 and 48 i + 48 of the image where they exist (any rows where they do not: they are masked). -/
theorem blockOut_eq (x : SX.Idx → EReal) (w1 : SW1.Idx → EReal) (b1 gamma beta mean var : SV16.Idx → EReal)
    (w2 : SW2.Idx → EReal) (b2 : SV36.Idx → EReal) (b : Fin 8) (i : Fin 4)
    (xc : STile.Idx → EReal) (xt xb : SRow.Idx → EReal)
    (hc : ∀ (r : Fin 48) (s : Fin 192) (k : Fin 64), xc (ix4 0 r s k) = x (ix4 b ⟨48 * i.val + r.val, by have := i.isLt; have := r.isLt; omega⟩ s k))
    (ht : ∀ (hi : i.val ≠ 0) (s : Fin 192) (k : Fin 64), xt (ix4 0 0 s k) = x (ix4 b ⟨48 * i.val - 1, by have := i.isLt; omega⟩ s k))
    (hb : ∀ (hi : i.val ≠ 3) (s : Fin 192) (k : Fin 64), xb (ix4 0 0 s k) = x (ix4 b ⟨48 * i.val + 48, by have := i.isLt; omega⟩ s k))
    (r : Fin 48) (s : Fin 192) (c : Fin 64) :
    blockOut (decide (i.val = 0)) (decide (i.val = 3)) xc xt xb w1 b1 gamma beta mean var w2 b2 r s c
      = outAt x w1 b1 gamma beta mean var w2 b2 b ⟨48 * i.val + r.val, by have := i.isLt; have := r.isLt; omega⟩ s c := by
  unfold blockOut outAt
  refine Finset.sum_congr rfl fun p _ => ?_
  have hpx : (fun k => xc (ix4 0 r s k)) = fun k => x (ix4 b ⟨48 * i.val + r.val, by have := i.isLt; have := r.isLt; omega⟩ s k) :=
    funext fun k => hc r s k
  -- the padded row of patch position p above image row 48 i + r is 48 i + (the window row of p above tile row r)
  have hrow : (pRow ⟨48 * i.val + r.val, by have := i.isLt; have := r.isLt; omega⟩ p).val = 48 * i.val + (tRow r p).val :=
    Nat.add_assoc _ _ _
  rw [hpx, halo_eq_padded x b i xc xt xb hc ht hb (tRow r p) (pCol s p) _ c hrow]

end Cert.Involution

end
-- ==== Proof.KernelIdealCover.lean ====
/-
  The result array after the run: the tiles written back at the 32 grid points are the blocks of ONE array, the
  involution `G` of the argument arrays.

  Grid point t = 4 * b + i writes tile i (rows 48 i .. 48 i + 47) of image b. Its centre block is those rows of the
  input, its two halo rows are rows max (48 i - 1) 0 and min (48 i + 48) 191 of the image — the rows 48 i - 1 and
  48 i + 48 wherever they exist, and masked by the body where they do not —, so the tile it stores is the
  array-level value on its rows (`Involution.blockOut_eq` over `Tile.outBlock_apply`), and the 32 tiles cover the
  array.
-/
import proofs.«121993_j19739669692648_1_alg».proof.Proof.KernelIdealRun
import proofs.«121993_j19739669692648_1_alg».proof.Proof.BlockValue
import proofs.«121993_j19739669692648_1_alg».proof.Proof.TileValue
import Idealize.ShloMosaic.Lib.Pipeline.Value

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tile

variable (m : (ℓ : Loc nD τ sig) → Buf (Elt Ideal) ℓ)

/-! ## The grid: which image and which row tile a point works on -/

private theorem zeroOff4 : (![0, 0, 0, 0] : Fin 4 → Nat) = fun _ => 0 := funext fun a => by fin_cases a <;> rfl
private theorem zeroOff2 : (![0, 0] : Fin 2 → Nat) = fun _ => 0 := funext fun a => by fin_cases a <;> rfl
private theorem zeroOff1 : (![0] : Fin 1 → Nat) = fun _ => 0 := funext fun a => by fin_cases a <;> rfl

/-- The image grid point `t` works on: `t / 4`. -/
private def imgOf (t : Fin cfg0.N) : Fin 8 := ⟨t.val / 4, by have := lt_of_lt_of_eq t.isLt N_0; omega⟩
/-- The row tile grid point `t` works on: `t % 4`. -/
private def tileOf (t : Fin cfg0.N) : Fin 4 := ⟨t.val % 4, by omega⟩

/-- The index maps over the 32 grid points: point `t` has coordinates (t / 4, t % 4); the centre and the result windows
    sit at block (t / 4, t % 4, 0, 0); the upper halo row is row 48 (t % 4) - 1 of the image (row 0 for the first tile), the
    lower one row 48 (t % 4) + 48 (row 191 for the last tile). -/
private theorem index_facts : ∀ t : Fin cfg0.N,
    ((grid0.coords t 0).val = t.val / 4 ∧ (grid0.coords t 1).val = t.val % 4)
    ∧ (win0_11.index t (0 : Fin 4) = t.val / 4 ∧ win0_11.index t (1 : Fin 4) = t.val % 4 ∧ win0_11.index t (2 : Fin 4) = 0 ∧ win0_11.index t (3 : Fin 4) = 0)
    ∧ (win0_0.index t (0 : Fin 4) = t.val / 4 ∧ win0_0.index t (1 : Fin 4) = t.val % 4 ∧ win0_0.index t (2 : Fin 4) = 0 ∧ win0_0.index t (3 : Fin 4) = 0)
    ∧ (win0_1.index t (0 : Fin 4) = t.val / 4 ∧ win0_1.index t (1 : Fin 4) = 48 * (t.val % 4) - 1 ∧ win0_1.index t (2 : Fin 4) = 0 ∧ win0_1.index t (3 : Fin 4) = 0)
    ∧ (win0_2.index t (0 : Fin 4) = t.val / 4 ∧ win0_2.index t (1 : Fin 4) = min (48 * (t.val % 4) + 48) 191 ∧ win0_2.index t (2 : Fin 4) = 0 ∧ win0_2.index t (3 : Fin 4) = 0) :=
  (by decide +kernel : ∀ t : Fin grid0.N, _)

/-! ## One point's tile from blocks read off the arrays -/

/-- The tile a grid point of row tile `i` stores, read at (0, r, s, k), when its centre block is rows 48 i .. 48 i + 47 of
    image `b` of `x` and its halo rows are rows 48 i - 1 and 48 i + 48 where those exist: the array-level value at row
    48 i + r. -/
private theorem tileOut_apply (gi : grid0.Coords) (b : Fin 8) (i : Fin 4) (hgi : (gi 1).val = i.val)
    (x : S8x192x192x64.Idx → EReal)
    (x0 : Vec Ideal S1x48x192x64 .f32) (x1 x2 : Vec Ideal S1x1x192x64 .f32) (x3 : Vec Ideal S64x16 .f32)
    (x4 x5 x6 x7 x8 : Vec Ideal S16 .f32) (x9 : Vec Ideal S16x36 .f32) (x10 : Vec Ideal S36 .f32)
    (hc : ∀ (r : Fin 48) (s : Fin 192) (k : Fin 64), x0 (ix4 0 r s k) = x (ix4 b ⟨48 * i.val + r.val, by have := i.isLt; have := r.isLt; omega⟩ s k))
    (ht : ∀ (hi : i.val ≠ 0) (s : Fin 192) (k : Fin 64), x1 (ix4 0 0 s k) = x (ix4 b ⟨48 * i.val - 1, by have := i.isLt; omega⟩ s k))
    (hb : ∀ (hi : i.val ≠ 3) (s : Fin 192) (k : Fin 64), x2 (ix4 0 0 s k) = x (ix4 b ⟨48 * i.val + 48, by have := i.isLt; omega⟩ s k))
    (r : Fin 48) (s : Fin 192) (k : Fin 64) :
    tileOut (F := Ideal) gi x0 x1 x2 x3 x4 x5 x6 x7 x8 x9 x10 (ix4 0 r s k)
      = Cert.Involution.outAt x x3 x4 x5 x6 x7 x8 x9 x10 b ⟨48 * i.val + r.val, by have := i.isLt; have := r.isLt; omega⟩ s k := by
  unfold tileOut
  rw [View.canon_unit_zero zeroOff4]
  simp only [View.ld_unit_zero (S := S1x48x192x64) zeroOff4, View.ld_unit_zero (S := S1x1x192x64) zeroOff4,
    View.ld_unit_zero (S := S64x16) zeroOff2, View.ld_unit_zero (S := S16x36) zeroOff2,
    View.ld_unit_zero (S := S16) zeroOff1, View.ld_unit_zero (S := S36) zeroOff1]
  rw [outBlock_apply, hgi]
  exact Cert.Involution.blockOut_eq x x3 x4 x5 x6 x7 x8 x9 x10 b i x0 x1 x2 hc ht hb r s k

/-! ## The windows' blocks at a point, read at an index -/

/-- The centre block at point `t` is rows 48 (t % 4) .. 48 (t % 4) + 47 of image t / 4. -/
private theorem centre_read (c : Dev nD) (t : Fin cfg0.N) (r : Fin 48) (s : Fin 192) (k : Fin 64) :
    iblk (F := Ideal) m c 0 t (ix4 0 r s k)
      = V m c main_arg0 (ix4 (imgOf t) ⟨48 * (tileOf t).val + r.val, by have := (tileOf t).isLt; have := r.isLt; omega⟩ s k) := by
  obtain ⟨-, -, ⟨e0, e1, e2, e3⟩, -, -⟩ := index_facts t
  show V m c main_arg0 (((cfg0.win 0).blk t).view.emb (ix4 0 r s k)) = _
  refine congrArg (V m c main_arg0) ?_
  funext a; apply Fin.ext
  match a with
  | ⟨0, _⟩ => show win0_0.index t (0 : Fin 4) * 1 + 1 * (0 : Fin 1).val = t.val / 4; rw [e0]; show t.val / 4 * 1 + 1 * 0 = t.val / 4; omega
  | ⟨1, _⟩ => show win0_0.index t (1 : Fin 4) * 48 + 1 * r.val = 48 * (t.val % 4) + r.val; rw [e1]; omega
  | ⟨2, _⟩ => show win0_0.index t (2 : Fin 4) * 192 + 1 * s.val = s.val; rw [e2]; omega
  | ⟨3, _⟩ => show win0_0.index t (3 : Fin 4) * 64 + 1 * k.val = k.val; rw [e3]; omega

/-- The upper halo row at point `t` is row 48 (t % 4) - 1 of image t / 4 (row 0 when the tile is the first). -/
private theorem top_read (c : Dev nD) (t : Fin cfg0.N) (s : Fin 192) (k : Fin 64) :
    iblk (F := Ideal) m c 1 t (ix4 0 0 s k)
      = V m c main_arg0 (ix4 (imgOf t) ⟨48 * (tileOf t).val - 1, by have := (tileOf t).isLt; omega⟩ s k) := by
  obtain ⟨-, -, -, ⟨e0, e1, e2, e3⟩, -⟩ := index_facts t
  show V m c main_arg0 (((cfg0.win 1).blk t).view.emb (ix4 0 0 s k)) = _
  refine congrArg (V m c main_arg0) ?_
  funext a; apply Fin.ext
  match a with
  | ⟨0, _⟩ => show win0_1.index t (0 : Fin 4) * 1 + 1 * (0 : Fin 1).val = t.val / 4; rw [e0]; show t.val / 4 * 1 + 1 * 0 = t.val / 4; omega
  | ⟨1, _⟩ => show win0_1.index t (1 : Fin 4) * 1 + 1 * (0 : Fin 1).val = 48 * (t.val % 4) - 1; rw [e1]; show (48 * (t.val % 4) - 1) * 1 + 1 * 0 = 48 * (t.val % 4) - 1; omega
  | ⟨2, _⟩ => show win0_1.index t (2 : Fin 4) * 192 + 1 * s.val = s.val; rw [e2]; omega
  | ⟨3, _⟩ => show win0_1.index t (3 : Fin 4) * 64 + 1 * k.val = k.val; rw [e3]; omega

/-- The lower halo row at point `t`, when the tile is not the last, is row 48 (t % 4) + 48 of image t / 4. -/
private theorem bottom_read (c : Dev nD) (t : Fin cfg0.N) (hi : (tileOf t).val ≠ 3) (s : Fin 192) (k : Fin 64) :
    iblk (F := Ideal) m c 2 t (ix4 0 0 s k)
      = V m c main_arg0 (ix4 (imgOf t) ⟨48 * (tileOf t).val + 48, by have := (tileOf t).isLt; omega⟩ s k) := by
  obtain ⟨-, -, -, -, ⟨e0, e1, e2, e3⟩⟩ := index_facts t
  have hi' : t.val % 4 ≠ 3 := hi
  show V m c main_arg0 (((cfg0.win 2).blk t).view.emb (ix4 0 0 s k)) = _
  refine congrArg (V m c main_arg0) ?_
  funext a; apply Fin.ext
  match a with
  | ⟨0, _⟩ => show win0_2.index t (0 : Fin 4) * 1 + 1 * (0 : Fin 1).val = t.val / 4; rw [e0]; show t.val / 4 * 1 + 1 * 0 = t.val / 4; omega
  | ⟨1, _⟩ => show win0_2.index t (1 : Fin 4) * 1 + 1 * (0 : Fin 1).val = 48 * (t.val % 4) + 48; rw [e1]; show min (48 * (t.val % 4) + 48) 191 * 1 + 1 * 0 = 48 * (t.val % 4) + 48; omega
  | ⟨2, _⟩ => show win0_2.index t (2 : Fin 4) * 192 + 1 * s.val = s.val; rw [e2]; omega
  | ⟨3, _⟩ => show win0_2.index t (3 : Fin 4) * 64 + 1 * k.val = k.val; rw [e3]; omega

/-- The first convolution's weights are loaded whole. -/
private theorem w1_read (c : Dev nD) (t : Fin cfg0.N) : iblk (F := Ideal) m c 3 t = V m c main_arg1 := by
  funext y
  show V m c main_arg1 (((cfg0.win 3).blk t).view.emb y) = V m c main_arg1 y
  refine congrArg (V m c main_arg1) ?_
  funext a; apply Fin.ext
  match a with
  | ⟨0, _⟩ => show win0_3.index t (0 : Fin 2) * 64 + 1 * (y 0).val = (y 0).val; rw [show win0_3.index t (0 : Fin 2) = 0 from rfl]; omega
  | ⟨1, _⟩ => show win0_3.index t (1 : Fin 2) * 16 + 1 * (y 1).val = (y 1).val; rw [show win0_3.index t (1 : Fin 2) = 0 from rfl]; omega

/-- The first convolution's bias is loaded whole. -/
private theorem b1_read (c : Dev nD) (t : Fin cfg0.N) : iblk (F := Ideal) m c 4 t = V m c main_arg2 := by
  funext y
  show V m c main_arg2 (((cfg0.win 4).blk t).view.emb y) = V m c main_arg2 y
  refine congrArg (V m c main_arg2) ?_
  funext a; apply Fin.ext
  match a with
  | ⟨0, _⟩ => show win0_4.index t (0 : Fin 1) * 16 + 1 * (y 0).val = (y 0).val; rw [show win0_4.index t (0 : Fin 1) = 0 from rfl]; omega

/-- The batch norm's scale is loaded whole. -/
private theorem gamma_read (c : Dev nD) (t : Fin cfg0.N) : iblk (F := Ideal) m c 5 t = V m c main_arg3 := by
  funext y
  show V m c main_arg3 (((cfg0.win 5).blk t).view.emb y) = V m c main_arg3 y
  refine congrArg (V m c main_arg3) ?_
  funext a; apply Fin.ext
  match a with
  | ⟨0, _⟩ => show win0_5.index t (0 : Fin 1) * 16 + 1 * (y 0).val = (y 0).val; rw [show win0_5.index t (0 : Fin 1) = 0 from rfl]; omega

/-- The batch norm's shift is loaded whole. -/
private theorem beta_read (c : Dev nD) (t : Fin cfg0.N) : iblk (F := Ideal) m c 6 t = V m c main_arg4 := by
  funext y
  show V m c main_arg4 (((cfg0.win 6).blk t).view.emb y) = V m c main_arg4 y
  refine congrArg (V m c main_arg4) ?_
  funext a; apply Fin.ext
  match a with
  | ⟨0, _⟩ => show win0_6.index t (0 : Fin 1) * 16 + 1 * (y 0).val = (y 0).val; rw [show win0_6.index t (0 : Fin 1) = 0 from rfl]; omega

/-- The batch norm's mean is loaded whole. -/
private theorem mean_read (c : Dev nD) (t : Fin cfg0.N) : iblk (F := Ideal) m c 7 t = V m c main_arg5 := by
  funext y
  show V m c main_arg5 (((cfg0.win 7).blk t).view.emb y) = V m c main_arg5 y
  refine congrArg (V m c main_arg5) ?_
  funext a; apply Fin.ext
  match a with
  | ⟨0, _⟩ => show win0_7.index t (0 : Fin 1) * 16 + 1 * (y 0).val = (y 0).val; rw [show win0_7.index t (0 : Fin 1) = 0 from rfl]; omega

/-- The batch norm's variance is loaded whole. -/
private theorem var_read (c : Dev nD) (t : Fin cfg0.N) : iblk (F := Ideal) m c 8 t = V m c main_arg6 := by
  funext y
  show V m c main_arg6 (((cfg0.win 8).blk t).view.emb y) = V m c main_arg6 y
  refine congrArg (V m c main_arg6) ?_
  funext a; apply Fin.ext
  match a with
  | ⟨0, _⟩ => show win0_8.index t (0 : Fin 1) * 16 + 1 * (y 0).val = (y 0).val; rw [show win0_8.index t (0 : Fin 1) = 0 from rfl]; omega

/-- The second convolution's weights are loaded whole. -/
private theorem w2_read (c : Dev nD) (t : Fin cfg0.N) : iblk (F := Ideal) m c 9 t = V m c main_arg7 := by
  funext y
  show V m c main_arg7 (((cfg0.win 9).blk t).view.emb y) = V m c main_arg7 y
  refine congrArg (V m c main_arg7) ?_
  funext a; apply Fin.ext
  match a with
  | ⟨0, _⟩ => show win0_9.index t (0 : Fin 2) * 16 + 1 * (y 0).val = (y 0).val; rw [show win0_9.index t (0 : Fin 2) = 0 from rfl]; omega
  | ⟨1, _⟩ => show win0_9.index t (1 : Fin 2) * 36 + 1 * (y 1).val = (y 1).val; rw [show win0_9.index t (1 : Fin 2) = 0 from rfl]; omega

/-- The second convolution's bias is loaded whole. -/
private theorem b2_read (c : Dev nD) (t : Fin cfg0.N) : iblk (F := Ideal) m c 10 t = V m c main_arg8 := by
  funext y
  show V m c main_arg8 (((cfg0.win 10).blk t).view.emb y) = V m c main_arg8 y
  refine congrArg (V m c main_arg8) ?_
  funext a; apply Fin.ext
  match a with
  | ⟨0, _⟩ => show win0_10.index t (0 : Fin 1) * 36 + 1 * (y 0).val = (y 0).val; rw [show win0_10.index t (0 : Fin 1) = 0 from rfl]; omega

/-- The involution of the argument arrays as the region finds them. -/
def GV (c : Dev nD) : Buf (Elt Ideal) ((c : Thread nD τ).loc main_v0) :=
  Cert.Involution.G (V m c main_arg0) (V m c main_arg1) (V m c main_arg2) (V m c main_arg3) (V m c main_arg4)
    (V m c main_arg5) (V m c main_arg6) (V m c main_arg7) (V m c main_arg8)

/-! ## What a point writes back, and the cover -/

/-- Element (0, r, s, k) of the result block at point `t` sits at row 48 (t % 4) + r of image t / 4. -/
private theorem out_emb (t : Fin cfg0.N) (r : Fin 48) (s : Fin 192) (k : Fin 64) :
    ((cfg0.win 11).blk t).view.emb (ix4 0 r s k)
      = ix4 (imgOf t) ⟨48 * (tileOf t).val + r.val, by have := (tileOf t).isLt; have := r.isLt; omega⟩ s k := by
  obtain ⟨-, ⟨e0, e1, e2, e3⟩, -, -, -⟩ := index_facts t
  funext a; apply Fin.ext
  match a with
  | ⟨0, _⟩ => show win0_11.index t (0 : Fin 4) * 1 + 1 * (0 : Fin 1).val = t.val / 4; rw [e0]; show t.val / 4 * 1 + 1 * 0 = t.val / 4; omega
  | ⟨1, _⟩ => show win0_11.index t (1 : Fin 4) * 48 + 1 * r.val = 48 * (t.val % 4) + r.val; rw [e1]; omega
  | ⟨2, _⟩ => show win0_11.index t (2 : Fin 4) * 192 + 1 * s.val = s.val; rw [e2]; omega
  | ⟨3, _⟩ => show win0_11.index t (3 : Fin 4) * 64 + 1 * k.val = k.val; rw [e3]; omega

/-- What point `t` writes back is its block of the involution of the argument arrays. -/
private theorem flushed_tile (c : Dev nD) (t : Fin cfg0.N) :
    (dats (F := Ideal) m 0 c).flushed 11 t = ((cfg0.win 11).blk t).view.read (Elt Ideal) (GV m c) := by
  obtain ⟨⟨-, g1⟩, -⟩ := index_facts t
  show (cfg0.win 11).cut (grid0.coords t) ((dats m 0 c).after 11 t) = _
  rw [after11]
  refine funext fun (y : S1x48x192x64.Idx) => ?_
  obtain ⟨y0, r, s, k, rfl⟩ : ∃ (y0 : Fin 1) (r : Fin 48) (s : Fin 192) (k : Fin 64), y = ix4 y0 r s k :=
    ⟨y 0, y 1, y 2, y 3, eq_ix4 y⟩
  obtain rfl : y0 = 0 := Subsingleton.elim _ _
  show tileOut (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix4 0 r s k)
    = GV m c (((cfg0.win 11).blk t).view.emb (ix4 0 r s k))
  rw [out_emb t r s k]
  refine (tileOut_apply (grid0.coords t) (imgOf t) (tileOf t) g1 (V m c main_arg0)
    (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (centre_read m c t) (fun _ => top_read m c t) (bottom_read m c t) r s k).trans ?_
  rw [w1_read, b1_read, gamma_read, beta_read, mean_read, var_read, w2_read, b2_read]
  rfl

/-- An index of the result array is in point `t`'s block iff each coordinate is in the block's range on its axis. -/
private theorem mem_tile (t : Fin cfg0.N) (i : S8x192x192x64.Idx) :
    i ∈ ((cfg0.win 11).blk t).view.set ↔ ∀ a : Fin 4, win0_11.index t a * S1x48x192x64.size a ≤ (i a).val
      ∧ (i a).val < win0_11.index t a * S1x48x192x64.size a + S1x48x192x64.size a := by
  show i ∈ ((View.whole main_v0).slice (win0_11.rect t)).set ↔ _
  rw [View.set_slice_whole, Rect.mem_set_unit]
  exact Iff.rfl

/-- The 32 tiles cover the result array: row h of image b is in the block of point 4 b + h / 48. -/
private theorem tiles_cover (i : S8x192x192x64.Idx) :
    ∃ t : Fin cfg0.N, (cfg0.win 11).flush t = true ∧ i ∈ ((cfg0.win 11).blk t).view.set := by
  have h0 : (i 0).val < 8 := (i 0).isLt
  have h1 : (i 1).val < 192 := (i 1).isLt
  have h2 : (i 2).val < 192 := (i 2).isLt
  have h3 : (i 3).val < 64 := (i 3).isLt
  have hN : 4 * (i 0).val + (i 1).val / 48 < cfg0.N := lt_of_lt_of_eq (by omega) N_0.symm
  obtain ⟨-, ⟨e0, e1, e2, e3⟩, -, -, -⟩ := index_facts ⟨4 * (i 0).val + (i 1).val / 48, hN⟩
  refine ⟨⟨4 * (i 0).val + (i 1).val / 48, hN⟩, flush0_11 _, ?_⟩
  rw [mem_tile]
  intro a
  match a with
  | ⟨0, _⟩ =>
    show win0_11.index ⟨4 * (i 0).val + (i 1).val / 48, hN⟩ (0 : Fin 4) * 1 ≤ (i 0).val
      ∧ (i 0).val < win0_11.index ⟨4 * (i 0).val + (i 1).val / 48, hN⟩ (0 : Fin 4) * 1 + 1
    rw [e0]; show (4 * (i 0).val + (i 1).val / 48) / 4 * 1 ≤ (i 0).val ∧ (i 0).val < (4 * (i 0).val + (i 1).val / 48) / 4 * 1 + 1; omega
  | ⟨1, _⟩ =>
    show win0_11.index ⟨4 * (i 0).val + (i 1).val / 48, hN⟩ (1 : Fin 4) * 48 ≤ (i 1).val
      ∧ (i 1).val < win0_11.index ⟨4 * (i 0).val + (i 1).val / 48, hN⟩ (1 : Fin 4) * 48 + 48
    rw [e1]; show (4 * (i 0).val + (i 1).val / 48) % 4 * 48 ≤ (i 1).val ∧ (i 1).val < (4 * (i 0).val + (i 1).val / 48) % 4 * 48 + 48; omega
  | ⟨2, _⟩ =>
    show win0_11.index ⟨4 * (i 0).val + (i 1).val / 48, hN⟩ (2 : Fin 4) * 192 ≤ (i 2).val
      ∧ (i 2).val < win0_11.index ⟨4 * (i 0).val + (i 1).val / 48, hN⟩ (2 : Fin 4) * 192 + 192
    rw [e2]; omega
  | ⟨3, _⟩ =>
    show win0_11.index ⟨4 * (i 0).val + (i 1).val / 48, hN⟩ (3 : Fin 4) * 64 ≤ (i 3).val
      ∧ (i 3).val < win0_11.index ⟨4 * (i 0).val + (i 1).val / 48, hN⟩ (3 : Fin 4) * 64 + 64
    rw [e3]; omega

/-- After the last grid point the result array holds the involution of the arguments. -/
theorem final_out (c : Dev nD) : (dats (F := Ideal) m 0 c).arrAt 11 cfg0.N = GV m c := by
  exact (dats m 0 c).arrAt_eq_of_cover 11 (GV m c) (fun t _ => flushed_tile m c t) tiles_cover

end Cert.KernelIdeal.Run

end
-- ==== Proof.RefValue.lean ====
/-
  The reference's result, index by index, is the involution `G` of the argument arrays.

  The reference generates, per pixel, 36 = 9 x 4 weights (a product with w1, a batch norm, a relu, a product with w2),
  pads the input with one ring of zeros, takes its nine shifted windows, stacks them along a new patch axis, splits
  the channel axis 64 = 16 x 4, multiplies by the weights broadcast over the 16, and sums over the patch axis. Read at
  one index (b, h, w, c): the sum over the patch positions p of weight 4 * p + c mod 4 times the padded input at
  (b, h + p / 3, w + p mod 3, c).
-/
import proofs.«121993_j19739669692648_1_alg».proof.Proof.Gen.ReferenceIdeal.Read
import proofs.«121993_j19739669692648_1_alg».proof.Proof.Spec
import Idealize.ShloMosaic.Lib.KernelVsHost
import Idealize.ShloMosaic.Lib.ValueIdxRank6

noncomputable section

open scoped BigOperators

namespace Cert.ReferenceIdeal.RefValue

open Cert.ReferenceIdeal Cert.ReferenceIdeal.Read Cert.Involution Idealize.ShloMosaic Idealize.ShloMosaic.ValueIdx

/-! ### The zero padding -/

/-- The padding value, the converted integer zero, is zero. -/
theorem padValue_eq : val_main_call1_v0 (F := Ideal) (Shape.Idx.first Facts₀.h_S_) = 0 := by
  show (Scalar.sitofp .f32 0#32 : Ideal .f32) = 0
  exact sitofp_zero

/-- The padded input read at padded coordinates. -/
theorem pad_at (x0 : (⟨S8x192x192x64, .f32⟩ : BufTy).Contents (Elt Ideal)) (b : Fin 8) (hh ww : Fin 194) (c : Fin 64) :
    val_main_v25 (F := Ideal) x0 (ix4 b hh ww c) = padded x0 b hh ww c := by
  unfold val_main_v25 padded
  by_cases hin : 1 ≤ hh.val ∧ hh.val ≤ 192 ∧ 1 ≤ ww.val ∧ ww.val ≤ 192
  · rw [dif_pos hin]
    exact pad_apply_of_inside _ _ _ x0 _ _ _ (ix4 b hh ww c)
      (ix4 b ⟨hh.val - 1, by omega⟩ ⟨ww.val - 1, by omega⟩ c) (fun a => match a with
        | ⟨0, _⟩ => by show b.val = 0 + b.val * (0 + 1); omega
        | ⟨1, _⟩ => by show hh.val = 1 + (hh.val - 1) * (0 + 1); omega
        | ⟨2, _⟩ => by show ww.val = 1 + (ww.val - 1) * (0 + 1); omega
        | ⟨3, _⟩ => by show c.val = 0 + c.val * (0 + 1); omega)
  · rw [dif_neg hin]
    by_cases hr : 1 ≤ hh.val ∧ hh.val ≤ 192
    · refine (pad_apply_of_not_inside _ _ _ x0 _ _ _ (ix4 b hh ww c) (2 : Fin 4) ?_).trans padValue_eq
      show ¬(1 ≤ ww.val ∧ (ww.val - 1) % (0 + 1) = 0 ∧ (ww.val - 1) / (0 + 1) < 192)
      omega
    · refine (pad_apply_of_not_inside _ _ _ x0 _ _ _ (ix4 b hh ww c) (1 : Fin 4) ?_).trans padValue_eq
      show ¬(1 ≤ hh.val ∧ (hh.val - 1) % (0 + 1) = 0 ∧ (hh.val - 1) / (0 + 1) < 192)
      omega

/-! ### The kernel generator: hidden features and generated weights at a pixel -/

section Gen
variable (x0 : (⟨S8x192x192x64, .f32⟩ : BufTy).Contents (Elt Ideal)) (x1 : (⟨S64x16, .f32⟩ : BufTy).Contents (Elt Ideal))
  (x2 x3 x4 x5 x6 : (⟨S16, .f32⟩ : BufTy).Contents (Elt Ideal)) (x7 : (⟨S16x36, .f32⟩ : BufTy).Contents (Elt Ideal))
  (x8 : (⟨S36, .f32⟩ : BufTy).Contents (Elt Ideal))

private theorem lidx0_eq (b : Fin 8) (h w : Fin 192) (d : Fin 16) (k : Fin 64) :
    lidx_main_v0 (ix4 b h w d) k = ix4 b h w k :=
  funext fun a => by match a with | ⟨0, _⟩ => rfl | ⟨1, _⟩ => rfl | ⟨2, _⟩ => rfl | ⟨3, _⟩ => rfl
private theorem ridx0_eq (b : Fin 8) (h w : Fin 192) (d : Fin 16) (k : Fin 64) :
    ridx_main_v0 (ix4 b h w d) k = ix2 k d :=
  funext fun a => by match a with | ⟨0, _⟩ => rfl | ⟨1, _⟩ => rfl
private theorem idx1_eq (b : Fin 8) (h w : Fin 192) (d : Fin 16) : idx_main_v1 (idx_main_v2 (ix4 b h w d)) = ix1 d :=
  funext fun a => by match a with | ⟨0, _⟩ => rfl
private theorem idx4_eq (b : Fin 8) (h w : Fin 192) (d : Fin 16) : idx_main_v4 (idx_main_v5 (ix4 b h w d)) = ix1 d :=
  funext fun a => by match a with | ⟨0, _⟩ => rfl
private theorem idx10_eq (b : Fin 8) (h w : Fin 192) (d : Fin 16) : idx_main_v10 (idx_main_v11 (ix4 b h w d)) = ix1 d :=
  funext fun a => by match a with | ⟨0, _⟩ => rfl
private theorem idx13_eq (b : Fin 8) (h w : Fin 192) (d : Fin 16) : idx_main_v13 (idx_main_v14 (ix4 b h w d)) = ix1 d :=
  funext fun a => by match a with | ⟨0, _⟩ => rfl
private theorem idx16_eq (b : Fin 8) (h w : Fin 192) (d : Fin 16) : idx_main_v16 (idx_main_v17 (ix4 b h w d)) = ix1 d :=
  funext fun a => by match a with | ⟨0, _⟩ => rfl

/-- The relu'd batch-normed bottleneck feature `d` at pixel `(b, h, w)`. -/
theorem hidden_at (b : Fin 8) (h w : Fin 192) (d : Fin 16) :
    val_main_v19 (F := Ideal) x0 x1 x2 x3 x4 x5 x6 (ix4 b h w d)
      = hiddenPix (fun k => x0 (ix4 b h w k)) x1 x2 x3 x4 x5 x6 d := by
  rw [val_main_v19_apply, val_main_v18_apply, val_main_v15_apply, val_main_v12_apply, val_main_v6_apply,
    val_main_v3_apply, val_main_v0_apply, val_main_v2_apply, val_main_v1_apply, val_main_v5_apply, val_main_v4_apply,
    val_main_v11_apply, val_main_v10_apply, val_main_v9_apply, val_main_v8_apply, val_main_v7_apply, val_main_cst_apply,
    val_main_v14_apply, val_main_v13_apply, val_main_v17_apply, val_main_v16_apply, val_main_call0_v0_apply,
    val_main_call0_cst_apply]
  simp only [lidx0_eq, ridx0_eq, idx1_eq, idx4_eq, idx10_eq, idx13_eq, idx16_eq, Ideal.maximumf_def, Ideal.addf_def,
    Ideal.mulf_def, Ideal.subf_def, Ideal.hostUnary_rsqrt_def, Ideal.ofBits_def, Ideal.ofBits_zero_f32]
  rfl

private theorem lidx20_eq (b : Fin 8) (h w : Fin 192) (e : Fin 36) (k : Fin 16) :
    lidx_main_v20 (ix4 b h w e) k = ix4 b h w k :=
  funext fun a => by match a with | ⟨0, _⟩ => rfl | ⟨1, _⟩ => rfl | ⟨2, _⟩ => rfl | ⟨3, _⟩ => rfl
private theorem ridx20_eq (b : Fin 8) (h w : Fin 192) (e : Fin 36) (k : Fin 16) :
    ridx_main_v20 (ix4 b h w e) k = ix2 k e :=
  funext fun a => by match a with | ⟨0, _⟩ => rfl | ⟨1, _⟩ => rfl
private theorem idx21_eq (b : Fin 8) (h w : Fin 192) (e : Fin 36) : idx_main_v21 (idx_main_v22 (ix4 b h w e)) = ix1 e :=
  funext fun a => by match a with | ⟨0, _⟩ => rfl

/-- The generated weight `e` at pixel `(b, h, w)`. -/
theorem weight_at (b : Fin 8) (h w : Fin 192) (e : Fin 36) :
    val_main_v23 (F := Ideal) x0 x1 x2 x3 x4 x5 x6 x7 x8 (ix4 b h w e)
      = weightPix (fun k => x0 (ix4 b h w k)) x1 x2 x3 x4 x5 x6 x7 x8 e := by
  rw [val_main_v23_apply, val_main_v20_apply, val_main_v22_apply, val_main_v21_apply]
  simp only [lidx20_eq, ridx20_eq, idx21_eq, hidden_at, Ideal.addf_def]
  rfl

end Gen

/-! ### The nine shifted windows of the padded input -/

/-- The padded input at an index whose coordinates are patch position `p`'s window over `(b, h, w, c)`. -/
private theorem window_at (x0 : (⟨S8x192x192x64, .f32⟩ : BufTy).Contents (Elt Ideal)) (b : Fin 8) (h w : Fin 192) (c : Fin 64)
    (p : Fin 9) (k : S8x194x194x64.Idx) (h0 : (k 0).val = b.val) (h1 : (k 1).val = h.val + p.val / 3)
    (h2 : (k 2).val = w.val + p.val % 3) (h3 : (k 3).val = c.val) :
    val_main_v25 (F := Ideal) x0 k = padded x0 b (pRow h p) (pCol w p) c := by
  have e : k = ix4 b (pRow h p) (pCol w p) c := funext fun a => Fin.ext (by
    match a with
    | ⟨0, _⟩ => exact h0
    | ⟨1, _⟩ => exact h1
    | ⟨2, _⟩ => exact h2
    | ⟨3, _⟩ => exact h3)
  rw [e]
  exact pad_at x0 b _ _ c

/-- Nine pieces of extent one stacked on axis 3: the element at patch position `p` comes from piece `p`. -/
private theorem piece_at {α : Type} (xs : List ((s : Shape) × (s.Idx → α)))
    (hc : Shape.Concatenates (xs.map (·.1)) S8x192x192x9x64 3) (b : Fin 8) (h w : Fin 192) (p : Fin 9) (c : Fin 64)
    (hk : p.val < xs.length) (x₁ : S8x192x192x1x64.Idx → α) (hxk : xs[p.val] = ⟨S8x192x192x1x64, x₁⟩)
    (hpre : (((xs.take p.val).map (·.1)).map fun s =>
      if h : s.rank = S8x192x192x9x64.rank then s.size ((3 : Fin S8x192x192x9x64.rank).cast h.symm) else 0).sum = p.val) :
    concatenate S8x192x192x9x64 3 xs hc (ix5 b h w p c) = x₁ (ix5 b h w (⟨0, Nat.one_pos⟩ : Fin 1) c) :=
  concatenate_apply_piece (3 : Fin S8x192x192x9x64.rank) xs hc (ix5 b h w p c) p.val hk S8x192x192x1x64 x₁ hxk rfl p.val hpre
    (ix5 b h w (⟨0, Nat.one_pos⟩ : Fin 1) c)
    (fun a => match a with
      | ⟨0, _⟩ => fun _ => rfl
      | ⟨1, _⟩ => fun _ => rfl
      | ⟨2, _⟩ => fun _ => rfl
      | ⟨3, _⟩ => fun hne => absurd rfl hne
      | ⟨4, _⟩ => fun _ => rfl)
    (Nat.add_zero _)

/-- The stack of windows at patch position `p` is the padded input at `p`'s row and column. -/
theorem patch_at (x0 : (⟨S8x192x192x64, .f32⟩ : BufTy).Contents (Elt Ideal)) (b : Fin 8) (h w : Fin 192) (p : Fin 9)
    (c : Fin 64) :
    val_main_v44 (F := Ideal) x0 (ix5 b h w p c) = padded x0 b (pRow h p) (pCol w p) c := by
  unfold val_main_v44
  match p with
  | ⟨0, hp⟩ =>
    refine (piece_at _ _ b h w ⟨0, hp⟩ c (by exact hp) (val_main_v35 (F := Ideal) x0) rfl rfl).trans ?_
    rw [val_main_v35_apply, val_main_v26_apply]
    exact window_at x0 b h w c ⟨0, hp⟩ _ rfl (by show h.val = h.val + 0 / 3; omega) (by show w.val = w.val + 0 % 3; omega) rfl
  | ⟨1, hp⟩ =>
    refine (piece_at _ _ b h w ⟨1, hp⟩ c (by exact hp) (val_main_v36 (F := Ideal) x0) rfl rfl).trans ?_
    rw [val_main_v36_apply, val_main_v27_apply]
    exact window_at x0 b h w c ⟨1, hp⟩ _ rfl (by show h.val = h.val + 1 / 3; omega) (by show 1 + w.val = w.val + 1 % 3; omega) rfl
  | ⟨2, hp⟩ =>
    refine (piece_at _ _ b h w ⟨2, hp⟩ c (by exact hp) (val_main_v37 (F := Ideal) x0) rfl rfl).trans ?_
    rw [val_main_v37_apply, val_main_v28_apply]
    exact window_at x0 b h w c ⟨2, hp⟩ _ rfl (by show h.val = h.val + 2 / 3; omega) (by show 2 + w.val = w.val + 2 % 3; omega) rfl
  | ⟨3, hp⟩ =>
    refine (piece_at _ _ b h w ⟨3, hp⟩ c (by exact hp) (val_main_v38 (F := Ideal) x0) rfl rfl).trans ?_
    rw [val_main_v38_apply, val_main_v29_apply]
    exact window_at x0 b h w c ⟨3, hp⟩ _ rfl (by show 1 + h.val = h.val + 3 / 3; omega) (by show w.val = w.val + 3 % 3; omega) rfl
  | ⟨4, hp⟩ =>
    refine (piece_at _ _ b h w ⟨4, hp⟩ c (by exact hp) (val_main_v39 (F := Ideal) x0) rfl rfl).trans ?_
    rw [val_main_v39_apply, val_main_v30_apply]
    exact window_at x0 b h w c ⟨4, hp⟩ _ rfl (by show 1 + h.val = h.val + 4 / 3; omega) (by show 1 + w.val = w.val + 4 % 3; omega) rfl
  | ⟨5, hp⟩ =>
    refine (piece_at _ _ b h w ⟨5, hp⟩ c (by exact hp) (val_main_v40 (F := Ideal) x0) rfl rfl).trans ?_
    rw [val_main_v40_apply, val_main_v31_apply]
    exact window_at x0 b h w c ⟨5, hp⟩ _ rfl (by show 1 + h.val = h.val + 5 / 3; omega) (by show 2 + w.val = w.val + 5 % 3; omega) rfl
  | ⟨6, hp⟩ =>
    refine (piece_at _ _ b h w ⟨6, hp⟩ c (by exact hp) (val_main_v41 (F := Ideal) x0) rfl rfl).trans ?_
    rw [val_main_v41_apply, val_main_v32_apply]
    exact window_at x0 b h w c ⟨6, hp⟩ _ rfl (by show 2 + h.val = h.val + 6 / 3; omega) (by show w.val = w.val + 6 % 3; omega) rfl
  | ⟨7, hp⟩ =>
    refine (piece_at _ _ b h w ⟨7, hp⟩ c (by exact hp) (val_main_v42 (F := Ideal) x0) rfl rfl).trans ?_
    rw [val_main_v42_apply, val_main_v33_apply]
    exact window_at x0 b h w c ⟨7, hp⟩ _ rfl (by show 2 + h.val = h.val + 7 / 3; omega) (by show 1 + w.val = w.val + 7 % 3; omega) rfl
  | ⟨8, hp⟩ =>
    refine (piece_at _ _ b h w ⟨8, hp⟩ c (by exact hp) (val_main_v43 (F := Ideal) x0) rfl rfl).trans ?_
    rw [val_main_v43_apply, val_main_v34_apply]
    exact window_at x0 b h w c ⟨8, hp⟩ _ rfl (by show 2 + h.val = h.val + 8 / 3; omega) (by show 2 + w.val = w.val + 8 % 3; omega) rfl

/-! ### The two reshapes into rank 6, read by coordinates -/

/-- The stack of windows with its channel axis split 64 = 16 x 4: channel `4 * j + g`. -/
theorem unfolded_at (x0 : (⟨S8x192x192x64, .f32⟩ : BufTy).Contents (Elt Ideal)) (b : Fin 8) (h w : Fin 192) (p : Fin 9)
    (j : Fin 16) (g : Fin 4) :
    val_main_v45 (F := Ideal) x0 (ix6 b h w p j g)
      = val_main_v44 (F := Ideal) x0 (ix5 b h w p (⟨4 * j.val + g.val, by omega⟩ : Fin 64)) := by
  unfold val_main_v45
  exact shapeCast_apply _ _ (ix6 b h w p j g) (ix5 b h w p (⟨4 * j.val + g.val, by omega⟩ : Fin 64)) (by
    rw [Shape.rowMajor_val_five, Shape.rowMajor_val_six]
    show (((b.val * 192 + h.val) * 192 + w.val) * 9 + p.val) * 64 + (4 * j.val + g.val)
      = ((((b.val * 192 + h.val) * 192 + w.val) * 9 + p.val) * 16 + j.val) * 4 + g.val
    omega)

/-- The generated weights with their axis split 36 = 9 x 1 x 4: weight `4 * p + g`. -/
theorem kern_at (x0 : (⟨S8x192x192x64, .f32⟩ : BufTy).Contents (Elt Ideal)) (x1 : (⟨S64x16, .f32⟩ : BufTy).Contents (Elt Ideal))
    (x2 x3 x4 x5 x6 : (⟨S16, .f32⟩ : BufTy).Contents (Elt Ideal)) (x7 : (⟨S16x36, .f32⟩ : BufTy).Contents (Elt Ideal))
    (x8 : (⟨S36, .f32⟩ : BufTy).Contents (Elt Ideal)) (b : Fin 8) (h w : Fin 192) (p : Fin 9) (u : Fin 1) (g : Fin 4) :
    val_main_v24 (F := Ideal) x0 x1 x2 x3 x4 x5 x6 x7 x8 (ix6 b h w p u g)
      = val_main_v23 (F := Ideal) x0 x1 x2 x3 x4 x5 x6 x7 x8 (ix4 b h w (⟨4 * p.val + g.val, by omega⟩ : Fin 36)) := by
  unfold val_main_v24
  exact shapeCast_apply _ _ (ix6 b h w p u g) (ix4 b h w (⟨4 * p.val + g.val, by omega⟩ : Fin 36)) (by
    rw [Shape.rowMajor_val_four, Shape.rowMajor_val_six]
    have hu : u.val < 1 := u.isLt
    show ((b.val * 192 + h.val) * 192 + w.val) * 36 + (4 * p.val + g.val)
      = ((((b.val * 192 + h.val) * 192 + w.val) * 9 + p.val) * 1 + u.val) * 4 + g.val
    omega)

/-! ### The reference's last stage -/

private theorem idx49_eq (b : Fin 8) (h w : Fin 192) (c : Fin 64) :
    idx_main_v49 (ix4 b h w c) = ix5 b h w (⟨c.val / 4, by omega⟩ : Fin 16) (⟨c.val % 4, by omega⟩ : Fin 4) :=
  funext fun a => Fin.ext (by
    have hb := b.isLt; have hh := h.isLt; have hw := w.isLt; have hc := c.isLt
    match a with
    | ⟨0, _⟩ => show (((b.val * 192 + h.val) * 192 + w.val) * 64 + c.val) / 2359296 = b.val; omega
    | ⟨1, _⟩ => show (((b.val * 192 + h.val) * 192 + w.val) * 64 + c.val) / 12288 % 192 = h.val; omega
    | ⟨2, _⟩ => show (((b.val * 192 + h.val) * 192 + w.val) * 64 + c.val) / 64 % 192 = w.val; omega
    | ⟨3, _⟩ => show (((b.val * 192 + h.val) * 192 + w.val) * 64 + c.val) / 4 % 16 = c.val / 4; omega
    | ⟨4, _⟩ => show (((b.val * 192 + h.val) * 192 + w.val) * 64 + c.val) % 4 = c.val % 4; omega)

private theorem idx48_eq (b : Fin 8) (h w : Fin 192) (j : Fin 16) (g : Fin 4) (p : Fin 9) :
    idx_main_v48 (ix5 b h w j g) p = ix6 b h w p j g :=
  funext fun a => by
    match a with | ⟨0, _⟩ => rfl | ⟨1, _⟩ => rfl | ⟨2, _⟩ => rfl | ⟨3, _⟩ => rfl | ⟨4, _⟩ => rfl | ⟨5, _⟩ => rfl

private theorem idx46_eq (b : Fin 8) (h w : Fin 192) (p : Fin 9) (j : Fin 16) (g : Fin 4) :
    idx_main_v46 (ix6 b h w p j g) = ix6 b h w p (⟨0, Nat.one_pos⟩ : Fin 1) g :=
  funext fun a => by
    match a with | ⟨0, _⟩ => rfl | ⟨1, _⟩ => rfl | ⟨2, _⟩ => rfl | ⟨3, _⟩ => rfl | ⟨4, _⟩ => rfl | ⟨5, _⟩ => rfl

/-- The reference's last stage, at `Ideal`, is `G` of the arguments. -/
theorem ref_eq_G (x0 : (⟨S8x192x192x64, .f32⟩ : BufTy).Contents (Elt Ideal)) (x1 : (⟨S64x16, .f32⟩ : BufTy).Contents (Elt Ideal))
    (x2 x3 x4 x5 x6 : (⟨S16, .f32⟩ : BufTy).Contents (Elt Ideal)) (x7 : (⟨S16x36, .f32⟩ : BufTy).Contents (Elt Ideal))
    (x8 : (⟨S36, .f32⟩ : BufTy).Contents (Elt Ideal)) :
    Cert.ReferenceIdeal.Read.val_main_v49 (F := Ideal) x0 x1 x2 x3 x4 x5 x6 x7 x8
      = Cert.Involution.G x0 x1 x2 x3 x4 x5 x6 x7 x8 := by
  funext i
  obtain ⟨b, h, w, c, rfl⟩ : ∃ (b : Fin 8) (h w : Fin 192) (c : Fin 64), i = ix4 b h w c :=
    ⟨i 0, i 1, i 2, i 3, eq_ix4 i⟩
  have hc : c.val < 64 := c.isLt
  rw [val_main_v49_apply, idx49_eq, val_main_v48_apply, val_main_cst_0_apply]
  show FloatOps.ofBits (F := Ideal) .f32 0x00000000#32 + _ = outAt x0 x1 x2 x3 x4 x5 x6 x7 x8 b h w c
  rw [Ideal.ofBits_def, Ideal.ofBits_zero_f32, zero_add]
  unfold outAt
  refine Finset.sum_congr rfl fun p _ => ?_
  rw [idx48_eq, val_main_v47_apply, val_main_v46_apply, idx46_eq, kern_at, weight_at, unfolded_at, patch_at, Ideal.mulf_def]
  have e1 : (⟨4 * p.val + (⟨c.val % 4, by omega⟩ : Fin 4).val, by have := p.isLt; omega⟩ : Fin 36) = wIdx p c := rfl
  have e2 : (⟨4 * (⟨c.val / 4, by omega⟩ : Fin 16).val + (⟨c.val % 4, by omega⟩ : Fin 4).val, by omega⟩ : Fin 64) = c :=
    Fin.ext (by show 4 * (c.val / 4) + c.val % 4 = c.val; omega)
  rw [e1, e2]

end Cert.ReferenceIdeal.RefValue

end
-- ==== Proof.lean ====
/-
  Involution (a 3x3 kernel generated per pixel by two 1x1 convolutions around an inference batch norm and a relu,
  then multiplied into the zero-padded input's 3x3 patches and summed) as a Pallas kernel over 8 images by 4 row
  tiles, against its jnp reference, over the extended reals.

  The kernel reads the input through three windows (the 48-row tile and the single rows above and below it), masks
  the halo rows that fall outside the image, pads the columns with zeros, and accumulates the nine patch products;
  the reference pads the whole input, stacks the nine shifted copies and reduces over the patch axis. Both are the
  one function `Involution.G` of the arguments: the reference stage by stage (`RefValue.ref_eq_G`), the kernel tile by
  tile (`Tile.outBlock_apply`, `Involution.blockOut_eq`) with the 32 tiles covering the result array
  (`Run.final_out`). Only the commutativity and associativity of the extended reals' sum and product are used, so
  the inputs' finiteness is never opened. The frames: each pallas program runs its grid to the end leaving the
  arguments unchanged (`Run.frame`, the input array's share dealt among its three windows); the reference's frame is
  its run with the result dropped. Nothing was rewritten by the idealization, so `preserves` is trivial.
-/
import proofs.«121993_j19739669692648_1_alg».proof.Defs
import proofs.«121993_j19739669692648_1_alg».proof.Proof.Gen.Kernel
import proofs.«121993_j19739669692648_1_alg».proof.Proof.Gen.KernelIdeal
import proofs.«121993_j19739669692648_1_alg».proof.Proof.Gen.ReferenceIdeal
import proofs.«121993_j19739669692648_1_alg».proof.Proof.Gen.ReferenceIdeal.Run
import proofs.«121993_j19739669692648_1_alg».proof.Proof.Gen.ReferenceIdeal.Read
import proofs.«121993_j19739669692648_1_alg».proof.Proof.Gen.Pre_finite_inputs
import proofs.«121993_j19739669692648_1_alg».proof.Proof.KernelFrame
import proofs.«121993_j19739669692648_1_alg».proof.Proof.KernelIdealFrame
import proofs.«121993_j19739669692648_1_alg».proof.Proof.KernelIdealCover
import proofs.«121993_j19739669692648_1_alg».proof.Proof.RefValue

noncomputable section

namespace Cert.Proof

open Idealize.ShloMosaic Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `G` of their (agreeing) arguments. -/
theorem algebraic : Cert.algebraic_KernelIdeal_ReferenceIdeal := by
  intro m ρ m' ρ' _ hagree
  refine ⟨fun c => Cert.KernelIdeal.Run.GV m c, ?_, ?_⟩
  · exact (θ_run Cert.KernelIdeal.defs _ _).mono
      (fun _ h c => ⟨((h c).1).trans (Cert.KernelIdeal.Run.final_out m c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, Cert.ReferenceIdeal.RefValue.ref_eq_G,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
